-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S2x18 : Shape := ⟨2, ![2, 18]⟩
abbrev S3x5 : Shape := ⟨2, ![3, 5]⟩
abbrev S_ : Shape := ⟨0, ![]⟩
abbrev S1000000x1 : Shape := ⟨2, ![1000000, 1]⟩
abbrev S1000000 : Shape := ⟨1, ![1000000]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S2x18 : S_.BroadcastsInDim S2x18 (![] : Fin 0 → Fin S2x18.rank)
  reducesTo_S2x18_S_d0_1 : S2x18.ReducesTo [0, 1] S_
  bcast_S_S3x5 : S_.BroadcastsInDim S3x5 (![] : Fin 0 → Fin S3x5.rank)
  reducesTo_S3x5_S_d0_1 : S3x5.ReducesTo [0, 1] S_
  slices_S1000000x64_S1000000x1_0_0 : S1000000x64.Slices ![0, 0] S1000000x1
  shapeCasts_S1000000x1_S1000000 : S1000000x1.ShapeCasts S1000000
  bcast_S_S1000000 : S_.BroadcastsInDim S1000000 (![] : Fin 0 → Fin S1000000.rank)
  reducesTo_S1000000_S_d0 : S1000000.ReducesTo [0] S_
  slices_S1000000x64_S1000000x1_0_2 : S1000000x64.Slices ![0, 2] S1000000x1
  slices_S1000000x64_S1000000x1_0_4 : S1000000x64.Slices ![0, 4] S1000000x1
  slices_S1000000x64_S1000000x1_0_6 : S1000000x64.Slices ![0, 6] S1000000x1
  slices_S1000000x64_S1000000x1_0_7 : S1000000x64.Slices ![0, 7] S1000000x1
  slices_S1000000x64_S1000000x1_0_9 : S1000000x64.Slices ![0, 9] S1000000x1
  slices_S1000000x64_S1000000x1_0_11 : S1000000x64.Slices ![0, 11] S1000000x1

variable [Facts]

def fn_part4 {F : FTy → Type} [FloatOps F] (main_arg0 : FVec F S1000000x64 .f32) (main_v13 : IVec S_ 1) (main_v62 : IVec S_ 1) (main_v71 : IVec S_ 1) : IVec S_ 1 :=
  let main_v72 : IVec S_ 1 := andi main_v62 main_v71
  let main_v73 : FVec F S1000000x1 .f32 := (extractStridedSlice S1000000x1 ![0, 11] · slices_S1000000x64_S1000000x1_0_11) main_arg0
  let main_v74 : FVec F S1000000 .f32 := shapeCast S1000000 main_v73 shapeCasts_S1000000x1_S1000000
  let main_v75 : IVec S1000000 32 := fptosi 32 main_v74
  let main_c_22 : IVec S_ 32 := constantI S_ 32 0#32
  let main_v76 : IVec S1000000 32 := broadcastInDim S1000000 ![] bcast_S_S1000000 main_c_22
  let main_v77 : IVec S1000000 1 := cmpi .sge main_v75 main_v76
  let main_c_23 : IVec S_ 32 := constantI S_ 32 2#32
  let main_v78 : IVec S1000000 32 := broadcastInDim S1000000 ![] bcast_S_S1000000 main_c_23
  let main_v79 : IVec S1000000 1 := cmpi .slt main_v75 main_v78
  let main_v80 : IVec S1000000 1 := andi main_v77 main_v79
  let main_c_24 : IVec S_ 1 := constantI S_ 1 1#1
  let main_v81 : IVec S_ 1 := (fun x v => Host.reduce IntOp.andi x v reducesTo_S1000000_S_d0 h_S_) main_v80 main_c_24
  let main_v82 : IVec S_ 1 := andi main_v72 main_v81
  let main_v83 : IVec S_ 1 := andi main_v13 main_v82
  main_v83

def fn_part3 {F : FTy → Type} [FloatOps F] (main_arg0 : FVec F S1000000x64 .f32) (main_v13 : IVec S_ 1) (main_v52 : IVec S_ 1) (main_v53 : FVec F S1000000x1 .f32) : IVec S_ 1 :=
  let main_v54 : FVec F S1000000 .f32 := shapeCast S1000000 main_v53 shapeCasts_S1000000x1_S1000000
  let main_v55 : IVec S1000000 32 := fptosi 32 main_v54
  let main_c_16 : IVec S_ 32 := constantI S_ 32 0#32
  let main_v56 : IVec S1000000 32 := broadcastInDim S1000000 ![] bcast_S_S1000000 main_c_16
  let main_v57 : IVec S1000000 1 := cmpi .sge main_v55 main_v56
  let main_c_17 : IVec S_ 32 := constantI S_ 32 2#32
  let main_v58 : IVec S1000000 32 := broadcastInDim S1000000 ![] bcast_S_S1000000 main_c_17
  let main_v59 : IVec S1000000 1 := cmpi .slt main_v55 main_v58
  let main_v60 : IVec S1000000 1 := andi main_v57 main_v59
  let main_c_18 : IVec S_ 1 := constantI S_ 1 1#1
  let main_v61 : IVec S_ 1 := (fun x v => Host.reduce IntOp.andi x v reducesTo_S1000000_S_d0 h_S_) main_v60 main_c_18
  let main_v62 : IVec S_ 1 := andi main_v52 main_v61
  let main_v63 : FVec F S1000000x1 .f32 := (extractStridedSlice S1000000x1 ![0, 9] · slices_S1000000x64_S1000000x1_0_9) main_arg0
  let main_v64 : FVec F S1000000 .f32 := shapeCast S1000000 main_v63 shapeCasts_S1000000x1_S1000000
  let main_v65 : IVec S1000000 32 := fptosi 32 main_v64
  let main_c_19 : IVec S_ 32 := constantI S_ 32 0#32
  let main_v66 : IVec S1000000 32 := broadcastInDim S1000000 ![] bcast_S_S1000000 main_c_19
  let main_v67 : IVec S1000000 1 := cmpi .sge main_v65 main_v66
  let main_c_20 : IVec S_ 32 := constantI S_ 32 2#32
  let main_v68 : IVec S1000000 32 := broadcastInDim S1000000 ![] bcast_S_S1000000 main_c_20
  let main_v69 : IVec S1000000 1 := cmpi .slt main_v65 main_v68
  let main_v70 : IVec S1000000 1 := andi main_v67 main_v69
  let main_c_21 : IVec S_ 1 := constantI S_ 1 1#1
  let main_v71 : IVec S_ 1 := (fun x v => Host.reduce IntOp.andi x v reducesTo_S1000000_S_d0 h_S_) main_v70 main_c_21
  fn_part4 (F := F) main_arg0 main_v13 main_v62 main_v71

def fn_part2 {F : FTy → Type} [FloatOps F] (main_arg0 : FVec F S1000000x64 .f32) (main_v13 : IVec S_ 1) (main_v32 : IVec S_ 1) (main_v35 : IVec S1000000 32) : IVec S_ 1 :=
  let main_c_10 : IVec S_ 32 := constantI S_ 32 0#32
  let main_v36 : IVec S1000000 32 := broadcastInDim S1000000 ![] bcast_S_S1000000 main_c_10
  let main_v37 : IVec S1000000 1 := cmpi .sge main_v35 main_v36
  let main_c_11 : IVec S_ 32 := constantI S_ 32 2#32
  let main_v38 : IVec S1000000 32 := broadcastInDim S1000000 ![] bcast_S_S1000000 main_c_11
  let main_v39 : IVec S1000000 1 := cmpi .slt main_v35 main_v38
  let main_v40 : IVec S1000000 1 := andi main_v37 main_v39
  let main_c_12 : IVec S_ 1 := constantI S_ 1 1#1
  let main_v41 : IVec S_ 1 := (fun x v => Host.reduce IntOp.andi x v reducesTo_S1000000_S_d0 h_S_) main_v40 main_c_12
  let main_v42 : IVec S_ 1 := andi main_v32 main_v41
  let main_v43 : FVec F S1000000x1 .f32 := (extractStridedSlice S1000000x1 ![0, 6] · slices_S1000000x64_S1000000x1_0_6) main_arg0
  let main_v44 : FVec F S1000000 .f32 := shapeCast S1000000 main_v43 shapeCasts_S1000000x1_S1000000
  let main_v45 : IVec S1000000 32 := fptosi 32 main_v44
  let main_c_13 : IVec S_ 32 := constantI S_ 32 0#32
  let main_v46 : IVec S1000000 32 := broadcastInDim S1000000 ![] bcast_S_S1000000 main_c_13
  let main_v47 : IVec S1000000 1 := cmpi .sge main_v45 main_v46
  let main_c_14 : IVec S_ 32 := constantI S_ 32 3#32
  let main_v48 : IVec S1000000 32 := broadcastInDim S1000000 ![] bcast_S_S1000000 main_c_14
  let main_v49 : IVec S1000000 1 := cmpi .slt main_v45 main_v48
  let main_v50 : IVec S1000000 1 := andi main_v47 main_v49
  let main_c_15 : IVec S_ 1 := constantI S_ 1 1#1
  let main_v51 : IVec S_ 1 := (fun x v => Host.reduce IntOp.andi x v reducesTo_S1000000_S_d0 h_S_) main_v50 main_c_15
  let main_v52 : IVec S_ 1 := andi main_v42 main_v51
  let main_v53 : FVec F S1000000x1 .f32 := (extractStridedSlice S1000000x1 ![0, 7] · slices_S1000000x64_S1000000x1_0_7) main_arg0
  fn_part3 (F := F) main_arg0 main_v13 main_v52 main_v53

def fn_part1 {F : FTy → Type} [FloatOps F] (main_arg0 : FVec F S1000000x64 .f32) (main_v13 : IVec S_ 1) (main_v16 : IVec S1000000 32) (main_c_4 : IVec S_ 32) : IVec S_ 1 :=
  let main_v17 : IVec S1000000 32 := broadcastInDim S1000000 ![] bcast_S_S1000000 main_c_4
  let main_v18 : IVec S1000000 1 := cmpi .sge main_v16 main_v17
  let main_c_5 : IVec S_ 32 := constantI S_ 32 2#32
  let main_v19 : IVec S1000000 32 := broadcastInDim S1000000 ![] bcast_S_S1000000 main_c_5
  let main_v20 : IVec S1000000 1 := cmpi .slt main_v16 main_v19
  let main_v21 : IVec S1000000 1 := andi main_v18 main_v20
  let main_c_6 : IVec S_ 1 := constantI S_ 1 1#1
  let main_v22 : IVec S_ 1 := (fun x v => Host.reduce IntOp.andi x v reducesTo_S1000000_S_d0 h_S_) main_v21 main_c_6
  let main_v23 : FVec F S1000000x1 .f32 := (extractStridedSlice S1000000x1 ![0, 2] · slices_S1000000x64_S1000000x1_0_2) main_arg0
  let main_v24 : FVec F S1000000 .f32 := shapeCast S1000000 main_v23 shapeCasts_S1000000x1_S1000000
  let main_v25 : IVec S1000000 32 := fptosi 32 main_v24
  let main_c_7 : IVec S_ 32 := constantI S_ 32 0#32
  let main_v26 : IVec S1000000 32 := broadcastInDim S1000000 ![] bcast_S_S1000000 main_c_7
  let main_v27 : IVec S1000000 1 := cmpi .sge main_v25 main_v26
  let main_c_8 : IVec S_ 32 := constantI S_ 32 2#32
  let main_v28 : IVec S1000000 32 := broadcastInDim S1000000 ![] bcast_S_S1000000 main_c_8
  let main_v29 : IVec S1000000 1 := cmpi .slt main_v25 main_v28
  let main_v30 : IVec S1000000 1 := andi main_v27 main_v29
  let main_c_9 : IVec S_ 1 := constantI S_ 1 1#1
  let main_v31 : IVec S_ 1 := (fun x v => Host.reduce IntOp.andi x v reducesTo_S1000000_S_d0 h_S_) main_v30 main_c_9
  let main_v32 : IVec S_ 1 := andi main_v22 main_v31
  let main_v33 : FVec F S1000000x1 .f32 := (extractStridedSlice S1000000x1 ![0, 4] · slices_S1000000x64_S1000000x1_0_4) main_arg0
  let main_v34 : FVec F S1000000 .f32 := shapeCast S1000000 main_v33 shapeCasts_S1000000x1_S1000000
  let main_v35 : IVec S1000000 32 := fptosi 32 main_v34
  fn_part2 (F := F) main_arg0 main_v13 main_v32 main_v35

def fn {F : FTy → Type} [FloatOps F] (main_arg0 : FVec F S1000000x64 .f32) (main_arg1 : FVec F S2x18 .f32) (main_arg2 : FVec F S3x5 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S2x18 .f32 := Host.absf main_arg1
  let main_cst_0 : FVec F S_ .f32 := constant S_ .f32 0x7F800000#32
  let main_v5 : FVec F S2x18 .f32 := broadcastInDim S2x18 ![] bcast_S_S2x18 main_cst_0
  let main_v6 : IVec S2x18 1 := cmpf .olt main_v4 main_v5
  let main_c_1 : IVec S_ 1 := constantI S_ 1 1#1
  let main_v7 : IVec S_ 1 := (fun x v => Host.reduce IntOp.andi x v reducesTo_S2x18_S_d0_1 h_S_) main_v6 main_c_1
  let main_v8 : IVec S_ 1 := andi main_v3 main_v7
  let main_v9 : FVec F S3x5 .f32 := Host.absf main_arg2
  let main_cst_2 : FVec F S_ .f32 := constant S_ .f32 0x7F800000#32
  let main_v10 : FVec F S3x5 .f32 := broadcastInDim S3x5 ![] bcast_S_S3x5 main_cst_2
  let main_v11 : IVec S3x5 1 := cmpf .olt main_v9 main_v10
  let main_c_3 : IVec S_ 1 := constantI S_ 1 1#1
  let main_v12 : IVec S_ 1 := (fun x v => Host.reduce IntOp.andi x v reducesTo_S3x5_S_d0_1 h_S_) main_v11 main_c_3
  let main_v13 : IVec S_ 1 := andi main_v8 main_v12
  let main_v14 : FVec F S1000000x1 .f32 := (extractStridedSlice S1000000x1 ![0, 0] · slices_S1000000x64_S1000000x1_0_0) main_arg0
  let main_v15 : FVec F S1000000 .f32 := shapeCast S1000000 main_v14 shapeCasts_S1000000x1_S1000000
  let main_v16 : IVec S1000000 32 := fptosi 32 main_v15
  let main_c_4 : IVec S_ 32 := constantI S_ 32 0#32
  fn_part1 (F := F) main_arg0 main_v13 main_v16 main_c_4
-- ==== Kernel.lean ====
abbrev S1000000x64 : Shape := ⟨2, ![1000000, 64]⟩
abbrev S2x18 : Shape := ⟨2, ![2, 18]⟩
abbrev S3x5 : Shape := ⟨2, ![3, 5]⟩
abbrev S1000000x80 : Shape := ⟨2, ![1000000, 80]⟩
abbrev S8000x64 : Shape := ⟨2, ![8000, 64]⟩
abbrev S8000x80 : Shape := ⟨2, ![8000, 80]⟩
abbrev S8000x1 : Shape := ⟨2, ![8000, 1]⟩
abbrev S8000 : Shape := ⟨1, ![8000]⟩
abbrev S1x3 : Shape := ⟨2, ![1, 3]⟩
abbrev S3 : Shape := ⟨1, ![3]⟩
abbrev S8000x3 : Shape := ⟨2, ![8000, 3]⟩
abbrev S1x5 : Shape := ⟨2, ![1, 5]⟩
abbrev S5 : Shape := ⟨1, ![5]⟩
abbrev S8000x5 : Shape := ⟨2, ![8000, 5]⟩
abbrev S8000x52 : Shape := ⟨2, ![8000, 52]⟩

abbrev nBuf : Space → Nat
  | .hbm => 4
  | .vmem => 6
  | .smem => 0
  | _ => 0

abbrev bufTy : (tb : Table) → Fin (tcTables nBuf tb) → BufTy
  | .hbm, ⟨0, _⟩ => ⟨S1000000x64, .f32⟩
  | .hbm, ⟨1, _⟩ => ⟨S2x18, .f32⟩
  | .hbm, ⟨2, _⟩ => ⟨S3x5, .f32⟩
  | .hbm, ⟨3, _⟩ => ⟨S1000000x80, .f32⟩
  | .local _ .vmem, ⟨0, _⟩ => ⟨S8000x64, .f32⟩
  | .local _ .vmem, ⟨1, _⟩ => ⟨S8000x64, .f32⟩
  | .local _ .vmem, ⟨2, _⟩ => ⟨S2x18, .f32⟩
  | .local _ .vmem, ⟨3, _⟩ => ⟨S3x5, .f32⟩
  | .local _ .vmem, ⟨4, _⟩ => ⟨S8000x80, .f32⟩
  | .local _ .vmem, ⟨5, _⟩ => ⟨S8000x80, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x18 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x80 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S8000x64_S8000x1_0_0 : ∀ a, (![0, 0] : Fin 2 → Nat) a + S8000x1.size a ≤ S8000x64.size a
  h_S8000x1 : 0 < S8000x1.numel
  shapeCasts_S8000x1_S8000 : S8000x1.ShapeCasts S8000
  natLt_1_32 : 1 < 32
  shapeCasts_S8000_S8000x1 : S8000.ShapeCasts S8000x1
  inb_S2x18_S1x3_0_0 : ∀ a, (![0, 0] : Fin 2 → Nat) a + S1x3.size a ≤ S2x18.size a
  h_S1x3 : 0 < S1x3.numel
  shapeCasts_S1x3_S3 : S1x3.ShapeCasts S3
  inb_S2x18_S1x3_1_0 : ∀ a, (![1, 0] : Fin 2 → Nat) a + S1x3.size a ≤ S2x18.size a
  shapeCasts_S3_S1x3 : S3.ShapeCasts S1x3
  broadcasts_S8000x1_S8000x3 : S8000x1.Broadcasts S8000x3
  broadcasts_S1x3_S8000x3 : S1x3.Broadcasts S8000x3
  inb_S8000x80_S8000x3_0_0 : ∀ a, (![0, 0] : Fin 2 → Nat) a + S8000x3.size a ≤ S8000x80.size a
  h_S8000x3 : 0 < S8000x3.numel
  inb_S8000x64_S8000x1_0_1 : ∀ a, (![0, 1] : Fin 2 → Nat) a + S8000x1.size a ≤ S8000x64.size a
  inb_S8000x80_S8000x1_0_3 : ∀ a, (![0, 3] : Fin 2 → Nat) a + S8000x1.size a ≤ S8000x80.size a
  inb_S8000x64_S8000x1_0_2 : ∀ a, (![0, 2] : Fin 2 → Nat) a + S8000x1.size a ≤ S8000x64.size a
  inb_S2x18_S1x3_0_3 : ∀ a, (![0, 3] : Fin 2 → Nat) a + S1x3.size a ≤ S2x18.size a
  inb_S2x18_S1x3_1_3 : ∀ a, (![1, 3] : Fin 2 → Nat) a + S1x3.size a ≤ S2x18.size a
  inb_S8000x80_S8000x3_0_4 : ∀ a, (![0, 4] : Fin 2 → Nat) a + S8000x3.size a ≤ S8000x80.size a
  inb_S8000x64_S8000x1_0_3 : ∀ a, (![0, 3] : Fin 2 → Nat) a + S8000x1.size a ≤ S8000x64.size a
  inb_S8000x80_S8000x1_0_7 : ∀ a, (![0, 7] : Fin 2 → Nat) a + S8000x1.size a ≤ S8000x80.size a
  inb_S8000x64_S8000x1_0_4 : ∀ a, (![0, 4] : Fin 2 → Nat) a + S8000x1.size a ≤ S8000x64.size a
  inb_S2x18_S1x3_0_6 : ∀ a, (![0, 6] : Fin 2 → Nat) a + S1x3.size a ≤ S2x18.size a
  inb_S2x18_S1x3_1_6 : ∀ a, (![1, 6] : Fin 2 → Nat) a + S1x3.size a ≤ S2x18.size a
  inb_S8000x80_S8000x3_0_8 : ∀ a, (![0, 8] : Fin 2 → Nat) a + S8000x3.size a ≤ S8000x80.size a
  inb_S8000x64_S8000x1_0_5 : ∀ a, (![0, 5] : Fin 2 → Nat) a + S8000x1.size a ≤ S8000x64.size a
  inb_S8000x80_S8000x1_0_11 : ∀ a, (![0, 11] : Fin 2 → Nat) a + S8000x1.size a ≤ S8000x80.size a
  inb_S8000x64_S8000x1_0_6 : ∀ a, (![0, 6] : Fin 2 → Nat) a + S8000x1.size a ≤ S8000x64.size a
  inb_S3x5_S1x5_0_0 : ∀ a, (![0, 0] : Fin 2 → Nat) a + S1x5.size a ≤ S3x5.size a
  h_S1x5 : 0 < S1x5.numel
  shapeCasts_S1x5_S5 : S1x5.ShapeCasts S5
  inb_S3x5_S1x5_1_0 : ∀ a, (![1, 0] : Fin 2 → Nat) a + S1x5.size a ≤ S3x5.size a
  inb_S3x5_S1x5_2_0 : ∀ a, (![2, 0] : Fin 2 → Nat) a + S1x5.size a ≤ S3x5.size a
  shapeCasts_S5_S1x5 : S5.ShapeCasts S1x5
  broadcasts_S8000x1_S8000x5 : S8000x1.Broadcasts S8000x5
  broadcasts_S1x5_S8000x5 : S1x5.Broadcasts S8000x5
  inb_S8000x80_S8000x5_0_12 : ∀ a, (![0, 12] : Fin 2 → Nat) a + S8000x5.size a ≤ S8000x80.size a
  h_S8000x5 : 0 < S8000x5.numel
  inb_S8000x64_S8000x1_0_7 : ∀ a, (![0, 7] : Fin 2 → Nat) a + S8000x1.size a ≤ S8000x64.size a
  inb_S2x18_S1x3_0_9 : ∀ a, (![0, 9] : Fin 2 → Nat) a + S1x3.size a ≤ S2x18.size a
  inb_S2x18_S1x3_1_9 : ∀ a, (![1, 9] : Fin 2 → Nat) a + S1x3.size a ≤ S2x18.size a
  inb_S8000x80_S8000x3_0_17 : ∀ a, (![0, 17] : Fin 2 → Nat) a + S8000x3.size a ≤ S8000x80.size a
  inb_S8000x64_S8000x1_0_8 : ∀ a, (![0, 8] : Fin 2 → Nat) a + S8000x1.size a ≤ S8000x64.size a
  inb_S8000x80_S8000x1_0_20 : ∀ a, (![0, 20] : Fin 2 → Nat) a + S8000x1.size a ≤ S8000x80.size a
  inb_S8000x64_S8000x1_0_9 : ∀ a, (![0, 9] : Fin 2 → Nat) a + S8000x1.size a ≤ S8000x64.size a
  inb_S2x18_S1x3_0_12 : ∀ a, (![0, 12] : Fin 2 → Nat) a + S1x3.size a ≤ S2x18.size a
  inb_S2x18_S1x3_1_12 : ∀ a, (![1, 12] : Fin 2 → Nat) a + S1x3.size a ≤ S2x18.size a
  inb_S8000x80_S8000x3_0_21 : ∀ a, (![0, 21] : Fin 2 → Nat) a + S8000x3.size a ≤ S8000x80.size a
  inb_S8000x64_S8000x1_0_10 : ∀ a, (![0, 10] : Fin 2 → Nat) a + S8000x1.size a ≤ S8000x64.size a
  inb_S8000x80_S8000x1_0_24 : ∀ a, (![0, 24] : Fin 2 → Nat) a + S8000x1.size a ≤ S8000x80.size a
  inb_S8000x64_S8000x1_0_11 : ∀ a, (![0, 11] : Fin 2 → Nat) a + S8000x1.size a ≤ S8000x64.size a
  inb_S2x18_S1x3_0_15 : ∀ a, (![0, 15] : Fin 2 → Nat) a + S1x3.size a ≤ S2x18.size a
  inb_S2x18_S1x3_1_15 : ∀ a, (![1, 15] : Fin 2 → Nat) a + S1x3.size a ≤ S2x18.size a
  inb_S8000x80_S8000x3_0_25 : ∀ a, (![0, 25] : Fin 2 → Nat) a + S8000x3.size a ≤ S8000x80.size a
  inb_S8000x64_S8000x52_0_12 : ∀ a, (![0, 12] : Fin 2 → Nat) a + S8000x52.size a ≤ S8000x64.size a
  h_S8000x52 : 0 < S8000x52.numel
  inb_S8000x80_S8000x52_0_28 : ∀ a, (![0, 28] : Fin 2 → Nat) a + S8000x52.size a ≤ S8000x80.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1000000x64.size a
  hwx0_0 : ∀ i : grid0.Coords, EltTy.bits .f32 = 32 ∨ (Rect.block (s := S1000000x64) S8000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x18.size a ≤ S2x18.size a
  hwx0_1 : ∀ i : grid0.Coords, EltTy.bits .f32 = 32 ∨ (Rect.block (s := S2x18) S2x18.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x5.size a ≤ S3x5.size a
  hwx0_2 : ∀ i : grid0.Coords, EltTy.bits .f32 = 32 ∨ (Rect.block (s := S3x5) S3x5.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x80.size a ≤ S1000000x80.size a
  hwx0_3 : ∀ i : grid0.Coords, EltTy.bits .f32 = 32 ∨ (Rect.block (s := S1000000x80) S8000x80.size (cc0_transform_3 i) (hinb0_3 i)).WholeWords (EltTy.packing .f32)

variable [Facts₀]

abbrev win0_0 : Pipeline.Window sig grid0 :=
  Pipeline.Window.ofSpec (Memref.whole main_arg0) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x18.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8000x80.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000000x64 : Shape := ⟨2, ![1000000, 64]⟩
abbrev S2x18 : Shape := ⟨2, ![2, 18]⟩
abbrev S3x5 : Shape := ⟨2, ![3, 5]⟩
abbrev S1000000x1 : Shape := ⟨2, ![1000000, 1]⟩
abbrev S1000000 : Shape := ⟨1, ![1000000]⟩
abbrev S2x3 : Shape := ⟨2, ![2, 3]⟩
abbrev S_ : Shape := ⟨0, ![]⟩
abbrev S1000000x3 : Shape := ⟨2, ![1000000, 3]⟩
abbrev S1000000x5 : Shape := ⟨2, ![1000000, 5]⟩
abbrev S1000000x52 : Shape := ⟨2, ![1000000, 52]⟩
abbrev S1000000x80 : Shape := ⟨2, ![1000000, 80]⟩

abbrev nBuf : Space → Nat
  | .hbm => 100
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S2x18, .f32⟩
  | .hbm, ⟨2, _⟩ => ⟨S3x5, .f32⟩
  | .hbm, ⟨3, _⟩ => ⟨S1000000x1, .f32⟩
  | .hbm, ⟨4, _⟩ => ⟨S1000000, .f32⟩
  | .hbm, ⟨5, _⟩ => ⟨S1000000, .i32⟩
  | .hbm, ⟨6, _⟩ => ⟨S2x3, .f32⟩
  | .hbm, ⟨7, _⟩ => ⟨S_, .i32⟩
  | .hbm, ⟨8, _⟩ => ⟨S1000000, .i32⟩
  | .hbm, ⟨9, _⟩ => ⟨S1000000, .i1⟩
  | .hbm, ⟨10, _⟩ => ⟨S_, .i32⟩
  | .hbm, ⟨11, _⟩ => ⟨S1000000, .i32⟩
  | .hbm, ⟨12, _⟩ => ⟨S1000000, .i32⟩
  | .hbm, ⟨13, _⟩ => ⟨S1000000, .i32⟩
  | .hbm, ⟨14, _⟩ => ⟨S1000000x1, .i32⟩
  | .hbm, ⟨15, _⟩ => ⟨S1000000x3, .f32⟩
  | .hbm, ⟨16, _⟩ => ⟨S1000000x1, .f32⟩
  | .hbm, ⟨17, _⟩ => ⟨S1000000x1, .f32⟩
  | .hbm, ⟨18, _⟩ => ⟨S1000000, .f32⟩
  | .hbm, ⟨19, _⟩ => ⟨S1000000, .i32⟩
  | .hbm, ⟨20, _⟩ => ⟨S2x3, .f32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x3, .f32⟩
  | .hbm, ⟨30, _⟩ => ⟨S1000000x1, .f32⟩
  | .hbm, ⟨31, _⟩ => ⟨S1000000x1, .f32⟩
  | .hbm, ⟨32, _⟩ => ⟨S1000000, .f32⟩
  | .hbm, ⟨33, _⟩ => ⟨S1000000, .i32⟩
  | .hbm, ⟨34, _⟩ => ⟨S2x3, .f32⟩
  | .hbm, ⟨35, _⟩ => ⟨S_, .i32⟩
  | .hbm, ⟨36, _⟩ => ⟨S1000000, .i32⟩
  | .hbm, ⟨37, _⟩ => ⟨S1000000, .i1⟩
  | .hbm, ⟨38, _⟩ => ⟨S_, .i32⟩
  | .hbm, ⟨39, _⟩ => ⟨S1000000, .i32⟩
  | .hbm, ⟨40, _⟩ => ⟨S1000000, .i32⟩
  | .hbm, ⟨41, _⟩ => ⟨S1000000, .i32⟩
  | .hbm, ⟨42, _⟩ => ⟨S1000000x1, .i32⟩
  | .hbm, ⟨43, _⟩ => ⟨S1000000x3, .f32⟩
  | .hbm, ⟨44, _⟩ => ⟨S1000000x1, .f32⟩
  | .hbm, ⟨45, _⟩ => ⟨S1000000x1, .f32⟩
  | .hbm, ⟨46, _⟩ => ⟨S1000000, .f32⟩
  | .hbm, ⟨47, _⟩ => ⟨S1000000, .i32⟩
  | .hbm, ⟨48, _⟩ => ⟨S_, .i32⟩
  | .hbm, ⟨49, _⟩ => ⟨S1000000, .i32⟩
  | .hbm, ⟨50, _⟩ => ⟨S1000000, .i1⟩
  | .hbm, ⟨51, _⟩ => ⟨S_, .i32⟩
  | .hbm, ⟨52, _⟩ => ⟨S1000000, .i32⟩
  | .hbm, ⟨53, _⟩ => ⟨S1000000, .i32⟩
  | .hbm, ⟨54, _⟩ => ⟨S1000000, .i32⟩
  | .hbm, ⟨55, _⟩ => ⟨S1000000x1, .i32⟩
  | .hbm, ⟨56, _⟩ => ⟨S1000000x5, .f32⟩
  | .hbm, ⟨57, _⟩ => ⟨S1000000x1, .f32⟩
  | .hbm, ⟨58, _⟩ => ⟨S1000000, .f32⟩
  | .hbm, ⟨59, _⟩ => ⟨S1000000, .i32⟩
  | .hbm, ⟨60, _⟩ => ⟨S2x3, .f32⟩
  | .hbm, ⟨61, _⟩ => ⟨S_, .i32⟩
  | .hbm, ⟨62, _⟩ => ⟨S1000000, .i32⟩
  | .hbm, ⟨63, _⟩ => ⟨S1000000, .i1⟩
  | .hbm, ⟨64, _⟩ => ⟨S_, .i32⟩
  | .hbm, ⟨65, _⟩ => ⟨S1000000, .i32⟩
  | .hbm, ⟨66, _⟩ => ⟨S1000000, .i32⟩
  | .hbm, ⟨67, _⟩ => ⟨S1000000, .i32⟩
  | .hbm, ⟨68, _⟩ => ⟨S1000000x1, .i32⟩
  | .hbm, ⟨69, _⟩ => ⟨S1000000x3, .f32⟩
  | .hbm, ⟨70, _⟩ => ⟨S1000000x1, .f32⟩
  | .hbm, ⟨71, _⟩ => ⟨S1000000x1, .f32⟩
  | .hbm, ⟨72, _⟩ => ⟨S1000000, .f32⟩
  | .hbm, ⟨73, _⟩ => ⟨S1000000, .i32⟩
  | .hbm, ⟨74, _⟩ => ⟨S2x3, .f32⟩
  | .hbm, ⟨75, _⟩ => ⟨S_, .i32⟩
  | .hbm, ⟨76, _⟩ => ⟨S1000000, .i32⟩
  | .hbm, ⟨77, _⟩ => ⟨S1000000, .i1⟩
  | .hbm, ⟨78, _⟩ => ⟨S_, .i32⟩
  | .hbm, ⟨79, _⟩ => ⟨S1000000, .i32⟩
  | .hbm, ⟨80, _⟩ => ⟨S1000000, .i32⟩
  | .hbm, ⟨81, _⟩ => ⟨S1000000, .i32⟩
  | .hbm, ⟨82, _⟩ => ⟨S1000000x1, .i32⟩
  | .hbm, ⟨83, _⟩ => ⟨S1000000x3, .f32⟩
  | .hbm, ⟨84, _⟩ => ⟨S1000000x1, .f32⟩
  | .hbm, ⟨85, _⟩ => ⟨S1000000x1, .f32⟩
  | .hbm, ⟨86, _⟩ => ⟨S1000000, .f32⟩
  | .hbm, ⟨87, _⟩ => ⟨S1000000, .i32⟩
  | .hbm, ⟨88, _⟩ => ⟨S2x3, .f32⟩
  | .hbm, ⟨89, _⟩ => ⟨S_, .i32⟩
  | .hbm, ⟨90, _⟩ => ⟨S1000000, .i32⟩
  | .hbm, ⟨91, _⟩ => ⟨S1000000, .i1⟩
  | .hbm, ⟨92, _⟩ => ⟨S_, .i32⟩
  | .hbm, ⟨93, _⟩ => ⟨S1000000, .i32⟩
  | .hbm, ⟨94, _⟩ => ⟨S1000000, .i32⟩
  | .hbm, ⟨95, _⟩ => ⟨S1000000, .i32⟩
  | .hbm, ⟨96, _⟩ => ⟨S1000000x1, .i32⟩
  | .hbm, ⟨97, _⟩ => ⟨S1000000x3, .f32⟩
  | .hbm, ⟨98, _⟩ => ⟨S1000000x52, .f32⟩
  | .hbm, ⟨99, _⟩ => ⟨S1000000x80, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_1 : Ref sig .tc := ⟨.hbm, 21, rfl⟩
abbrev main_v16 : Ref sig .tc := ⟨.hbm, 22, rfl⟩
abbrev main_v17 : Ref sig .tc := ⟨.hbm, 23, rfl⟩
abbrev main_c_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_3 : Ref sig .tc := ⟨.hbm, 35, rfl⟩
abbrev main_v28 : Ref sig .tc := ⟨.hbm, 36, rfl⟩
abbrev main_v29 : Ref sig .tc := ⟨.hbm, 37, rfl⟩
abbrev main_c_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c_5 : Ref sig .tc := ⟨.hbm, 48, rfl⟩
abbrev main_v39 : Ref sig .tc := ⟨.hbm, 49, rfl⟩
abbrev main_v40 : Ref sig .tc := ⟨.hbm, 50, rfl⟩
abbrev main_c_6 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_c_7 : Ref sig .tc := ⟨.hbm, 61, rfl⟩
abbrev main_v50 : Ref sig .tc := ⟨.hbm, 62, rfl⟩
abbrev main_v51 : Ref sig .tc := ⟨.hbm, 63, rfl⟩
abbrev main_c_8 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_c_9 : Ref sig .tc := ⟨.hbm, 75, rfl⟩
abbrev main_v62 : Ref sig .tc := ⟨.hbm, 76, rfl⟩
abbrev main_v63 : Ref sig .tc := ⟨.hbm, 77, rfl⟩
abbrev main_c_10 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_c_11 : Ref sig .tc := ⟨.hbm, 89, rfl⟩
abbrev main_v74 : Ref sig .tc := ⟨.hbm, 90, rfl⟩
abbrev main_v75 : Ref sig .tc := ⟨.hbm, 91, rfl⟩
abbrev main_c_12 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩

abbrev nD : Nat := 1
abbrev τ : Topo := Topo.v7x

variable {F : FTy → Type} [FloatOps F]

class Facts₀ : Prop where
  slices_S1000000x64_S1000000x1_0_0 : S1000000x64.Slices ![0, 0] S1000000x1
  shapeCasts_S1000000x1_S1000000 : S1000000x1.ShapeCasts S1000000
  slices_S2x18_S2x3_0_0 : S2x18.Slices ![0, 0] S2x3
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S1000000x64_S1000000x1_0_1 : S1000000x64.Slices ![0, 1] S1000000x1
  slices_S1000000x64_S1000000x1_0_2 : S1000000x64.Slices ![0, 2] S1000000x1
  slices_S2x18_S2x3_0_3 : S2x18.Slices ![0, 3] S2x3
  slices_S1000000x64_S1000000x1_0_3 : S1000000x64.Slices ![0, 3] S1000000x1
  slices_S1000000x64_S1000000x1_0_4 : S1000000x64.Slices ![0, 4] S1000000x1
  slices_S2x18_S2x3_0_6 : S2x18.Slices ![0, 6] S2x3
  slices_S1000000x64_S1000000x1_0_5 : S1000000x64.Slices ![0, 5] S1000000x1
  slices_S1000000x64_S1000000x1_0_6 : S1000000x64.Slices ![0, 6] S1000000x1
  slices_S1000000x64_S1000000x1_0_7 : S1000000x64.Slices ![0, 7] S1000000x1
  slices_S2x18_S2x3_0_9 : S2x18.Slices ![0, 9] S2x3
  slices_S1000000x64_S1000000x1_0_8 : S1000000x64.Slices ![0, 8] S1000000x1
  slices_S1000000x64_S1000000x1_0_9 : S1000000x64.Slices ![0, 9] S1000000x1
  slices_S2x18_S2x3_0_12 : S2x18.Slices ![0, 12] S2x3
  slices_S1000000x64_S1000000x1_0_10 : S1000000x64.Slices ![0, 10] S1000000x1
  slices_S1000000x64_S1000000x1_0_11 : S1000000x64.Slices ![0, 11] S1000000x1
  slices_S2x18_S2x3_0_15 : S2x18.Slices ![0, 15] S2x3
  slices_S1000000x64_S1000000x52_0_12 : S1000000x64.Slices ![0, 12] S1000000x52
  concatenates_S1000000x3_S1000000x1_S1000000x3_S1000000x1_S1000000x3_S1000000x1_S1000000x5_S1000000x3_S1000000x1_S1000000x3_S1000000x1_S1000000x3_S1000000x52_S1000000x80_d1 : Shape.Concatenates [S1000000x3, S1000000x1, S1000000x3, S1000000x1, S1000000x3, S1000000x1, S1000000x5, S1000000x3, S1000000x1, S1000000x3, S1000000x1, S1000000x3, S1000000x52] S1000000x80 1
  gather_S2x3_S1000000x1_S1000000x3_1_0_n_n_0_1_13_wf : GatherDims.WF S2x3 S1000000x1 S1000000x3 [1] [0] [] [0] [] 1 ![1, 3]
  gather_S3x5_S1000000x1_S1000000x5_1_0_n_n_0_1_15_wf : GatherDims.WF S3x5 S1000000x1 S1000000x5 [1] [0] [] [0] [] 1 ![1, 5]

variable [Facts₀]

def gather_S2x3_S1000000x1_S1000000x3_1_0_n_n_0_1_13 : GatherDims S2x3 S1000000x1 S1000000x3 where
  offsetDims := [1]
  collapsedSliceDims := [0]
  operandBatchingDims := []
  startIndicesBatchingDims := []
  startIndexMap := [0]
  indexVectorDim := 1
  sliceSizes := ![1, 3]
  wf := gather_S2x3_S1000000x1_S1000000x3_1_0_n_n_0_1_13_wf
def gather_S3x5_S1000000x1_S1000000x5_1_0_n_n_0_1_15 : GatherDims S3x5 S1000000x1 S1000000x5 where
  offsetDims := [1]
  collapsedSliceDims := [0]
  operandBatchingDims := []
  startIndicesBatchingDims := []
  startIndexMap := [0]
  indexVectorDim := 1
  sliceSizes := ![1, 5]
  wf := gather_S3x5_S1000000x1_S1000000x5_1_0_n_n_0_1_15_wf

class Facts : Prop extends Facts₀ where

variable [Facts]
-- ==== Proof.LibRowGather.lean ====
/-
  A table's rows gathered by a column of row numbers, read at one element.

  jnp's `table[ids]` for a rank-2 table `[N, C]` and a vector of `n` row numbers lowers to a `stablehlo.gather`
  whose start indices are the `[n, 1]` column of row numbers: the table's axis 0 is collapsed and start-indexed, its
  axis 1 is the one offset axis (slice sizes `[1, C]`), nothing is batched, and the index vector lies on axis 1.
  Result element `(p, q)` is then the table's element in column `q` of the row that start index `p` names — the
  row number read as a SIGNED integer and clamped into `[0, N - 1]`, as StableHLO clamps every start index so that
  the slice fits.
-/
import Idealize.ShloMosaic.Lib.ValueIdx

noncomputable section

namespace Idealize.ShloMosaic.RowGather

open Idealize.ShloMosaic Idealize.ShloMosaic.ValueIdx

variable {α : Type}

/-- The dimension numbers of `table[ids]` for a table `[N, C]`, row numbers `[n, 1]` and a result `[n, C]`; their
    side conditions `wf` are decided on a program's literal shapes. -/
abbrev rowsDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(p, q)`: column `q` of the table's row whose number is start index `p`, read signed and
    clamped into `[0, N - 1]`. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (ids : IVec ⟨2, ![n, 1]⟩ w) (p : Fin n) (q : Fin C) :
    Host.gather (rowsDims N C n wf) x ids (ix2 p q)
      = x (ix2 (⟨min (ids (ix2 p (0 : Fin 1))).toInt.toNat (N - 1), by omega⟩ : Fin N) q) := by
  unfold Host.gather
  congr 1
  funext a
  refine Fin.ext ?_
  match a with
  | ⟨0, _⟩ =>
    -- the row axis: collapsed, so no offset coordinate; not batched; its start is the clamped row number
    show (rowsDims N C n wf).start (ix2 p q) ids 0 + (rowsDims N C n wf).batchCoord (ix2 p q) 0
        + (rowsDims N C n wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C n wf).startIndexMap from List.mem_singleton.mpr rfl)]
    have hsi : (rowsDims N C n wf).siIdx (ix2 p q) ⟨List.idxOf (0 : Fin 2) (rowsDims N C n wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    -- the column axis: not start-indexed, not batched; its offset coordinate is the result's column
    show (rowsDims N C n wf).start (ix2 p q) ids 1 + (rowsDims N C n wf).batchCoord (ix2 p q) 1
        + (rowsDims N C n wf).offCoord (ix2 p q) 1 = q.val
    have hs : (rowsDims N C n wf).start (ix2 p q) ids 1 = 0 := by
      unfold GatherDims.start
      rw [dif_neg (show (1 : Fin 2) ∉ (rowsDims N C n wf).startIndexMap from (by decide : (1 : Fin 2) ∉ ([0] : List (Fin 2))))]
    have hk : (1 : Fin 2) ∈ (rowsDims N C n wf).sKept :=
      (GatherDims.mem_sKept _ _).mpr ⟨(by decide : (1 : Fin 2) ∉ ([0] : List (Fin 2))), List.not_mem_nil⟩
    rw [hs, GatherDims.batchCoord_eq_zero _ _ _ List.not_mem_nil]
    simp only [Nat.zero_add]
    unfold GatherDims.offCoord
    rw [dif_pos hk]
    rfl

end Idealize.ShloMosaic.RowGather

end
-- ==== Proof.CategorySelect.lean ====
/-
  Choosing an embedding row by a category id, two ways.

  A category id is a 32-bit word `b`. The kernel never indexes: for a two-row table it forms the 0/1 factor
  `[b = 1]` and computes `row0 + [b = 1] * (row1 - row0)`; for a three-row table
  `row0 + [b = 1] * (row1 - row0) + [b = 2] * (row2 - row0)`. The reference indexes: it adds the number of rows to a
  negative id (Python's wrap-around), and the gather then reads the id as a signed integer clamped into the table.
  On an id that IS a category (`0 ≤ b < rows`) the wrap does nothing, the clamp does nothing, and over finite table
  entries the kernel's sum telescopes to the chosen row: `a0 + 1 * (a1 - a0) = a1`, `a0 + 0 * (a1 - a0) = a0`. (The
  entries must be finite for the first: at `a0 = +∞` the difference `a1 - a0` is `-∞` and the sum is not `a1`.)
-/
import Idealize.ShloMosaic.PureOps.Ideal
import Idealize.ShloMosaic.Lib.StableHlo.Predicate

noncomputable section

namespace Cert.CategorySelect

open Idealize.ShloMosaic

/-! ## An id in range is one of the categories -/

theorem toInt_nonneg_lt {b : BitVec 32} {n : Nat} (hn : n < 2 ^ 31)
    (h0 : IntOp.cmpi .sge b 0#32 = 1#1) (h1 : IntOp.cmpi .slt b (BitVec.ofNat 32 n) = 1#1) :
    0 ≤ b.toInt ∧ b.toInt < n := by
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  rw [e0] at h0
  rw [StableHlo.Predicate.toInt_ofNat_small n hn] at h1
  exact ⟨h0, h1⟩

/-- A word that is `≥ 0` and `< 2` as a signed integer is `0` or `1`. -/
theorem id_lt_two {b : BitVec 32} (h0 : IntOp.cmpi .sge b 0#32 = 1#1) (h1 : IntOp.cmpi .slt b 2#32 = 1#1) :
    b = 0#32 ∨ b = 1#32 := by
  obtain ⟨l, u⟩ := toInt_nonneg_lt (n := 2) (by decide) h0 h1
  have h : b.toInt = 0 ∨ b.toInt = 1 := by omega
  rcases h with h | h
  · exact .inl (BitVec.eq_of_toInt_eq (by rw [h]; decide))
  · exact .inr (BitVec.eq_of_toInt_eq (by rw [h]; decide))

/-- A word that is `≥ 0` and `< 3` as a signed integer is `0`, `1` or `2`. -/
theorem id_lt_three {b : BitVec 32} (h0 : IntOp.cmpi .sge b 0#32 = 1#1) (h1 : IntOp.cmpi .slt b 3#32 = 1#1) :
    b = 0#32 ∨ b = 1#32 ∨ b = 2#32 := by
  obtain ⟨l, u⟩ := toInt_nonneg_lt (n := 3) (by decide) h0 h1
  have h : b.toInt = 0 ∨ b.toInt = 1 ∨ b.toInt = 2 := by omega
  rcases h with h | h | h
  · exact .inl (BitVec.eq_of_toInt_eq (by rw [h]; decide))
  · exact .inr (.inl (BitVec.eq_of_toInt_eq (by rw [h]; decide)))
  · exact .inr (.inr (BitVec.eq_of_toInt_eq (by rw [h]; decide)))

/-! ## The kernel's side: a 0/1 factor per category -/

/-- The factor `[b = k]` as the kernel forms it: the comparison's bit, widened to 32 bits, converted to a float. -/
def ind (k b : BitVec 32) : EReal := ((((IntOp.cmpi .eq b k).setWidth 32).toInt : ℝ) : EReal)

/-- Row `b` of a two-row column, by the factor for row 1. -/
def sel2 (b : BitVec 32) (r0 r1 : EReal) : EReal := r0 + ind 1#32 b * (r1 - r0)

/-- Row `b` of a three-row column, by the factors for rows 1 and 2. -/
def sel3 (b : BitVec 32) (r0 r1 r2 : EReal) : EReal := r0 + ind 1#32 b * (r1 - r0) + ind 2#32 b * (r2 - r0)

theorem ind_1_0 : ind 1#32 0#32 = 0 := by
  have h : ((IntOp.cmpi .eq (0#32 : BitVec 32) 1#32).setWidth 32).toInt = 0 := by decide
  unfold ind; rw [h]; simp
theorem ind_1_1 : ind 1#32 1#32 = 1 := by
  have h : ((IntOp.cmpi .eq (1#32 : BitVec 32) 1#32).setWidth 32).toInt = 1 := by decide
  unfold ind; rw [h]; simp
theorem ind_1_2 : ind 1#32 2#32 = 0 := by
  have h : ((IntOp.cmpi .eq (2#32 : BitVec 32) 1#32).setWidth 32).toInt = 0 := by decide
  unfold ind; rw [h]; simp
theorem ind_2_0 : ind 2#32 0#32 = 0 := by
  have h : ((IntOp.cmpi .eq (0#32 : BitVec 32) 2#32).setWidth 32).toInt = 0 := by decide
  unfold ind; rw [h]; simp
theorem ind_2_1 : ind 2#32 1#32 = 0 := by
  have h : ((IntOp.cmpi .eq (1#32 : BitVec 32) 2#32).setWidth 32).toInt = 0 := by decide
  unfold ind; rw [h]; simp
theorem ind_2_2 : ind 2#32 2#32 = 1 := by
  have h : ((IntOp.cmpi .eq (2#32 : BitVec 32) 2#32).setWidth 32).toInt = 1 := by decide
  unfold ind; rw [h]; simp

/-- Over real entries, adding back a difference lands on its minuend. -/
theorem coe_add_sub (a0 a1 : ℝ) : (a0 : EReal) + ((a1 : EReal) - (a0 : EReal)) = (a1 : EReal) := by
  rw [← EReal.coe_sub, ← EReal.coe_add]; congr 1; ring

/-! ## The reference's side: wrap a negative id, then clamp into the table -/

/-- Python's wrap-around of a row number, as the reference's host code spells it: a negative id has the number of rows
    added. -/
def wrapId (rows b : BitVec 32) : BitVec 32 := Scalar.select (IntOp.cmpi .slt b 0#32) (IntOp.addi b rows) b

/-- The row the gather then reads in a table of `N` rows: the wrapped id, read signed, clamped into `[0, N - 1]`. -/
def gatheredRow (N : Nat) (rows b : BitVec 32) : Nat := min (wrapId rows b).toInt.toNat (N - 1)

theorem gatheredRow_2_0 : gatheredRow 2 2#32 0#32 = 0 := by decide
theorem gatheredRow_2_1 : gatheredRow 2 2#32 1#32 = 1 := by decide
theorem gatheredRow_3_0 : gatheredRow 3 3#32 0#32 = 0 := by decide
theorem gatheredRow_3_1 : gatheredRow 3 3#32 1#32 = 1 := by decide
theorem gatheredRow_3_2 : gatheredRow 3 3#32 2#32 = 2 := by decide

/-! ## The two agree on a category -/

/-- TWO ROWS. For an id that is a category and a column of finite entries, the kernel's sum is the entry of the row the
    reference gathers. -/
theorem sel2_eq_gathered (W : Fin 2 → EReal) (hW : ∀ k, ∃ a : ℝ, W k = (a : EReal)) {b : BitVec 32}
    (hb : b = 0#32 ∨ b = 1#32) (k : Fin 2) (hk : k.val = gatheredRow 2 2#32 b) :
    sel2 b (W 0) (W 1) = W k := by
  obtain ⟨a0, e0⟩ := hW 0
  obtain ⟨a1, e1⟩ := hW 1
  rcases hb with rfl | rfl
  · rw [gatheredRow_2_0] at hk
    obtain rfl : k = 0 := Fin.ext hk
    unfold sel2; rw [ind_1_0, zero_mul, add_zero]
  · rw [gatheredRow_2_1] at hk
    obtain rfl : k = 1 := Fin.ext hk
    unfold sel2; rw [ind_1_1, one_mul, e0, e1, coe_add_sub]

/-- THREE ROWS, likewise. -/
theorem sel3_eq_gathered (W : Fin 3 → EReal) (hW : ∀ k, ∃ a : ℝ, W k = (a : EReal)) {b : BitVec 32}
    (hb : b = 0#32 ∨ b = 1#32 ∨ b = 2#32) (k : Fin 3) (hk : k.val = gatheredRow 3 3#32 b) :
    sel3 b (W 0) (W 1) (W 2) = W k := by
  obtain ⟨a0, e0⟩ := hW 0
  obtain ⟨a1, e1⟩ := hW 1
  obtain ⟨a2, e2⟩ := hW 2
  rcases hb with rfl | rfl | rfl
  · rw [gatheredRow_3_0] at hk
    obtain rfl : k = 0 := Fin.ext hk
    unfold sel3; rw [ind_1_0, ind_2_0, zero_mul, zero_mul, add_zero, add_zero]
  · rw [gatheredRow_3_1] at hk
    obtain rfl : k = 1 := Fin.ext hk
    unfold sel3; rw [ind_1_1, ind_2_1, one_mul, zero_mul, add_zero, e0, e1, coe_add_sub]
  · rw [gatheredRow_3_2] at hk
    obtain rfl : k = 2 := Fin.ext hk
    unfold sel3; rw [ind_1_2, ind_2_2, zero_mul, one_mul, add_zero, e0, e2, coe_add_sub]

end Cert.CategorySelect

end
-- ==== Proof.ColumnRead.lean ====
/-
  One column of a matrix, cut out as an `[n, 1]` slice and flattened to a vector, read at a row: it is the matrix's entry
  in that row and column. (jnp's `x[:, c]` prints as this slice followed by this reshape.)
-/
import Idealize.ShloMosaic.Lib.ValueIdx
import Idealize.ShloMosaic.Lib.Pipeline.Value

noncomputable section

namespace Cert.ColumnRead

open Idealize.ShloMosaic Idealize.ShloMosaic.ValueIdx

theorem column_entry {α : Type} {n m : Nat} (x : (⟨2, ![n, m]⟩ : Shape).Idx → α) (off : Fin 2 → Nat)
    (hs : (⟨2, ![n, m]⟩ : Shape).Slices off ⟨2, ![n, 1]⟩) (hc : (⟨2, ![n, 1]⟩ : Shape).ShapeCasts ⟨1, ![n]⟩)
    (c : Fin m) (h0 : off 0 = 0) (h1 : off 1 = c.val) (r : Fin n) :
    shapeCast (⟨1, ![n]⟩ : Shape) (extractStridedSlice (⟨2, ![n, 1]⟩ : Shape) off x hs) hc (ix1 r) = x (ix2 r c) := by
  rw [shapeCast_apply _ hc (ix1 r) (ix2 r (0 : Fin 1))
    (by rw [Shape.rowMajor_val_two, Shape.rowMajor_val_one]; show r.val * 1 + 0 = r.val; omega)]
  exact extractStridedSlice_apply off x hs (ix2 r (0 : Fin 1)) (ix2 r c) (fun a => match a with
    | ⟨0, _⟩ => by show r.val = off 0 + r.val; rw [h0]; omega
    | ⟨1, _⟩ => by show c.val = off 1 + 0; rw [h1]; omega)

end Cert.ColumnRead

end
-- ==== Proof.RefGather.lean ====
/-
  The reference's embedding pieces and passed-through columns, read at one element.

  For a categorical column the reference converts the column's entries to 32-bit ids, adds the number of table rows to a
  negative id (Python's wrap-around), lays the ids out as an `[n, 1]` column of start indices and gathers table rows with it.
  Read at `(r, j)` the gathered array is column `j` of the table's row that the id of row `r` selects: the wrapped id, read
  signed and clamped into the table by the gather. A continuous stretch of columns is a slice of `x`.
-/
import proofs.«408796_j44555990729103_3_alg».proof.Proof.Gen.ReferenceIdeal.Read
import proofs.«408796_j44555990729103_3_alg».proof.Proof.LibRowGather
import proofs.«408796_j44555990729103_3_alg».proof.Proof.CategorySelect
import proofs.«408796_j44555990729103_3_alg».proof.Proof.ColumnRead
import Idealize.ShloMosaic.Lib.Pipeline.Value

noncomputable section

namespace Cert.RefGather

open Idealize.ShloMosaic Idealize.ShloMosaic.ValueIdx Idealize.ShloMosaic.RowGather Cert.CategorySelect
open Cert.ReferenceIdeal Cert.ReferenceIdeal.Gen Cert.ReferenceIdeal.Read

theorem gatheredRow_lt (N : Nat) (rows b : BitVec 32) (hN : 0 < N) : gatheredRow N rows b < N := by
  unfold gatheredRow; omega

/-- The start index the gather is given for row `r`: the id of column `c`, wrapped. -/
theorem wrapped_id (x0 : FVec Ideal S1000000x64 .f32) (off : Fin 2 → Nat) (hs : S1000000x64.Slices off S1000000x1)
    (hc : S1000000x1.ShapeCasts S1000000) (hb0 : S_.BroadcastsInDim S1000000 (![] : Fin 0 → Fin S1000000.rank))
    (hb1 : S1000000.BroadcastsInDim S1000000x1 (![0] : Fin 1 → Fin S1000000x1.rank))
    (c : Fin 64) (h0 : off 0 = 0) (h1 : off 1 = c.val) (rows : BitVec 32) (r : Fin 1000000) :
    broadcastInDim S1000000x1 ![0] hb1
        (select (cmpi .slt (fptosi 32 (shapeCast S1000000 (extractStridedSlice S1000000x1 off x0 hs) hc))
            (broadcastInDim S1000000 ![] hb0 (constantI S_ 32 0#32)))
          (addi (fptosi 32 (shapeCast S1000000 (extractStridedSlice S1000000x1 off x0 hs) hc))
            (broadcastInDim S1000000 ![] hb0 (constantI S_ 32 rows)))
          (fptosi 32 (shapeCast S1000000 (extractStridedSlice S1000000x1 off x0 hs) hc))) (ix2 r (0 : Fin 1))
      = wrapId rows (FloatOps.fptosi 32 (x0 (ix2 r c))) := by
  rw [broadcastInDim_apply ![0] hb1 _ (ix2 r (0 : Fin 1)) (ix1 r) (fun a => match a with
    | ⟨0, _⟩ => by show r.val = if (1000000 : Nat) = 1 then 0 else r.val; rw [if_neg (by decide)])]
  have hv := Cert.ColumnRead.column_entry x0 off hs hc c h0 h1 r
  show Scalar.select (IntOp.cmpi .slt (FloatOps.fptosi 32
        (shapeCast S1000000 (extractStridedSlice S1000000x1 off x0 hs) hc (ix1 r))) 0#32)
      (IntOp.addi (FloatOps.fptosi 32 (shapeCast S1000000 (extractStridedSlice S1000000x1 off x0 hs) hc (ix1 r))) rows)
      (FloatOps.fptosi 32 (shapeCast S1000000 (extractStridedSlice S1000000x1 off x0 hs) hc (ix1 r))) = _
  rw [hv]; rfl

/-- A binary column's embedding piece at `(r, j)`: column `s + j` of `W2`, in the row the wrapped, clamped id names. -/
theorem gathered2 (x0 : FVec Ideal S1000000x64 .f32) (x1 : FVec Ideal S2x18 .f32) (offx : Fin 2 → Nat)
    (hsx : S1000000x64.Slices offx S1000000x1) (hc : S1000000x1.ShapeCasts S1000000)
    (hb0 : S_.BroadcastsInDim S1000000 (![] : Fin 0 → Fin S1000000.rank))
    (hb1 : S1000000.BroadcastsInDim S1000000x1 (![0] : Fin 1 → Fin S1000000x1.rank))
    (c : Fin 64) (h0 : offx 0 = 0) (h1 : offx 1 = c.val)
    (offw : Fin 2 → Nat) (hsw : S2x18.Slices offw S2x3) (s : Nat) (hw0 : offw 0 = 0) (hw1 : offw 1 = s) (hs3 : s + 3 ≤ 18)
    (r : Fin 1000000) (j : Fin 3) :
    Host.gather gather_S2x3_S1000000x1_S1000000x3_1_0_n_n_0_1_13 (extractStridedSlice S2x3 offw x1 hsw)
        (broadcastInDim S1000000x1 ![0] hb1
          (select (cmpi .slt (fptosi 32 (shapeCast S1000000 (extractStridedSlice S1000000x1 offx x0 hsx) hc))
              (broadcastInDim S1000000 ![] hb0 (constantI S_ 32 0#32)))
            (addi (fptosi 32 (shapeCast S1000000 (extractStridedSlice S1000000x1 offx x0 hsx) hc))
              (broadcastInDim S1000000 ![] hb0 (constantI S_ 32 2#32)))
            (fptosi 32 (shapeCast S1000000 (extractStridedSlice S1000000x1 offx x0 hsx) hc)))) (ix2 r j)
      = x1 (ix2 (⟨gatheredRow 2 2#32 (FloatOps.fptosi 32 (x0 (ix2 r c))), gatheredRow_lt 2 _ _ (by decide)⟩ : Fin 2)
          (⟨s + j.val, by have := j.isLt; omega⟩ : Fin 18)) := by
  show Host.gather (rowsDims 2 3 1000000 gather_S2x3_S1000000x1_S1000000x3_1_0_n_n_0_1_13_wf) _ _ (ix2 r j) = _
  rw [gather_rows_apply (by decide)]
  have hw := wrapped_id x0 offx hsx hc hb0 hb1 c h0 h1 2#32 r
  exact extractStridedSlice_apply offw x1 hsw _ _ (fun a => match a with
    | ⟨0, _⟩ => by
      show gatheredRow 2 2#32 (FloatOps.fptosi 32 (x0 (ix2 r c))) = offw 0 + min (_ : BitVec 32).toInt.toNat (2 - 1)
      rw [hw, hw0, Nat.zero_add]; rfl
    | ⟨1, _⟩ => by show s + j.val = offw 1 + j.val; rw [hw1])

/-- The ternary column's embedding piece at `(r, j)`: column `j` of `W3`, in the row the wrapped, clamped id names. -/
theorem gathered3 (x0 : FVec Ideal S1000000x64 .f32) (x2 : FVec Ideal S3x5 .f32) (offx : Fin 2 → Nat)
    (hsx : S1000000x64.Slices offx S1000000x1) (hc : S1000000x1.ShapeCasts S1000000)
    (hb0 : S_.BroadcastsInDim S1000000 (![] : Fin 0 → Fin S1000000.rank))
    (hb1 : S1000000.BroadcastsInDim S1000000x1 (![0] : Fin 1 → Fin S1000000x1.rank))
    (c : Fin 64) (h0 : offx 0 = 0) (h1 : offx 1 = c.val) (r : Fin 1000000) (j : Fin 5) :
    Host.gather gather_S3x5_S1000000x1_S1000000x5_1_0_n_n_0_1_15 x2
        (broadcastInDim S1000000x1 ![0] hb1
          (select (cmpi .slt (fptosi 32 (shapeCast S1000000 (extractStridedSlice S1000000x1 offx x0 hsx) hc))
              (broadcastInDim S1000000 ![] hb0 (constantI S_ 32 0#32)))
            (addi (fptosi 32 (shapeCast S1000000 (extractStridedSlice S1000000x1 offx x0 hsx) hc))
              (broadcastInDim S1000000 ![] hb0 (constantI S_ 32 3#32)))
            (fptosi 32 (shapeCast S1000000 (extractStridedSlice S1000000x1 offx x0 hsx) hc)))) (ix2 r j)
      = x2 (ix2 (⟨gatheredRow 3 3#32 (FloatOps.fptosi 32 (x0 (ix2 r c))), gatheredRow_lt 3 _ _ (by decide)⟩ : Fin 3) j) := by
  show Host.gather (rowsDims 3 5 1000000 gather_S3x5_S1000000x1_S1000000x5_1_0_n_n_0_1_15_wf) _ _ (ix2 r j) = _
  rw [gather_rows_apply (by decide)]
  have hw := wrapped_id x0 offx hsx hc hb0 hb1 c h0 h1 3#32 r
  refine congrArg x2 (congrArg (fun k => ix2 k j) (Fin.ext ?_))
  show min (_ : BitVec 32).toInt.toNat (3 - 1) = gatheredRow 3 3#32 (FloatOps.fptosi 32 (x0 (ix2 r c)))
  rw [hw]; rfl

/-- A slice of `w` columns of `x` from column `s` on, read at `(r, j)`. -/
theorem passed (x0 : FVec Ideal S1000000x64 .f32) (w : Nat) (off : Fin 2 → Nat)
    (hs : S1000000x64.Slices off (⟨2, ![1000000, w]⟩ : Shape)) (s : Nat) (h0 : off 0 = 0) (h1 : off 1 = s) (hw : s + w ≤ 64)
    (r : Fin 1000000) (j : Fin w) :
    extractStridedSlice (⟨2, ![1000000, w]⟩ : Shape) off x0 hs (ix2 r j)
      = x0 (ix2 r (⟨s + j.val, by have := j.isLt; omega⟩ : Fin 64)) :=
  extractStridedSlice_apply off x0 hs _ _ (fun a => match a with
    | ⟨0, _⟩ => by show r.val = off 0 + r.val; rw [h0]; omega
    | ⟨1, _⟩ => by show s + j.val = off 1 + j.val; rw [h1])

end Cert.RefGather

end
-- ==== Proof.RefPieceTable.lean ====
import proofs.«408796_j44555990729103_3_alg».proof.Proof.RefGather

noncomputable section

namespace Cert.RefPieceTable

open Idealize.ShloMosaic Idealize.ShloMosaic.ValueIdx Cert.CategorySelect Cert.RefGather
open Cert.ReferenceIdeal Cert.ReferenceIdeal.Gen Cert.ReferenceIdeal.Read

/-- Columns 0 to 2: the embedding of categorical column 0 (columns 0 to 2 of `W2`). -/
theorem ref_cols_0 (x0 : FVec Ideal S1000000x64 .f32) (x1 : FVec Ideal S2x18 .f32) (x2 : FVec Ideal S3x5 .f32)
    (R : Fin 1000000) (q : Fin 80) (j : Fin 3) (hq : q.val = 0 + j.val) :
    val_main_v82 (F := Ideal) x0 x1 x2 (ix2 R q)
      = x1 (ix2 (⟨gatheredRow 2 2#32 (FloatOps.fptosi 32 (x0 (ix2 R (0 : Fin 64)))), gatheredRow_lt 2 _ _ (by decide)⟩ : Fin 2)
          (⟨0 + j.val, by have := j.isLt; omega⟩ : Fin 18)) := by
  unfold val_main_v82
  rw [concatenate_apply_piece 1 _ _ (ix2 R q) 0 (by show 0 < 13; decide) S1000000x3 (val_main_v10 (F := Ideal) x0 x1) rfl rfl 0 rfl
    (ix2 R j) (fun b hb => match b, hb with | ⟨0, _⟩, _ => rfl | ⟨1, _⟩, hb => absurd (Fin.ext rfl) hb) (by show 0 + j.val = q.val; omega)]
  exact gathered2 x0 x1 ![0, 0] _ _ _ _ 0 rfl rfl ![0, 0] _ 0 rfl rfl (by decide) R j

/-- Column 3: column 1 of `x`, passed through. -/
theorem ref_cols_3 (x0 : FVec Ideal S1000000x64 .f32) (x1 : FVec Ideal S2x18 .f32) (x2 : FVec Ideal S3x5 .f32)
    (R : Fin 1000000) (q : Fin 80) (j : Fin 1) (hq : q.val = 3 + j.val) :
    val_main_v82 (F := Ideal) x0 x1 x2 (ix2 R q) = x0 (ix2 R (⟨1 + j.val, by have := j.isLt; omega⟩ : Fin 64)) := by
  unfold val_main_v82
  rw [concatenate_apply_piece 1 _ _ (ix2 R q) 1 (by show 1 < 13; decide) S1000000x1 (val_main_v11 (F := Ideal) x0) rfl rfl 3 rfl
    (ix2 R j) (fun b hb => match b, hb with | ⟨0, _⟩, _ => rfl | ⟨1, _⟩, hb => absurd (Fin.ext rfl) hb) (by show 3 + j.val = q.val; omega)]
  exact passed x0 1 ![0, 1] _ 1 rfl rfl (by decide) R j

/-- Columns 4 to 6: the embedding of categorical column 2 (columns 3 to 5 of `W2`). -/
theorem ref_cols_4 (x0 : FVec Ideal S1000000x64 .f32) (x1 : FVec Ideal S2x18 .f32) (x2 : FVec Ideal S3x5 .f32)
    (R : Fin 1000000) (q : Fin 80) (j : Fin 3) (hq : q.val = 4 + j.val) :
    val_main_v82 (F := Ideal) x0 x1 x2 (ix2 R q)
      = x1 (ix2 (⟨gatheredRow 2 2#32 (FloatOps.fptosi 32 (x0 (ix2 R (2 : Fin 64)))), gatheredRow_lt 2 _ _ (by decide)⟩ : Fin 2)
          (⟨3 + j.val, by have := j.isLt; omega⟩ : Fin 18)) := by
  unfold val_main_v82
  rw [concatenate_apply_piece 1 _ _ (ix2 R q) 2 (by show 2 < 13; decide) S1000000x3 (val_main_v22 (F := Ideal) x0 x1) rfl rfl 4 rfl
    (ix2 R j) (fun b hb => match b, hb with | ⟨0, _⟩, _ => rfl | ⟨1, _⟩, hb => absurd (Fin.ext rfl) hb) (by show 4 + j.val = q.val; omega)]
  exact gathered2 x0 x1 ![0, 2] _ _ _ _ 2 rfl rfl ![0, 3] _ 3 rfl rfl (by decide) R j

/-- Column 7: column 3 of `x`, passed through. -/
theorem ref_cols_7 (x0 : FVec Ideal S1000000x64 .f32) (x1 : FVec Ideal S2x18 .f32) (x2 : FVec Ideal S3x5 .f32)
    (R : Fin 1000000) (q : Fin 80) (j : Fin 1) (hq : q.val = 7 + j.val) :
    val_main_v82 (F := Ideal) x0 x1 x2 (ix2 R q) = x0 (ix2 R (⟨3 + j.val, by have := j.isLt; omega⟩ : Fin 64)) := by
  unfold val_main_v82
  rw [concatenate_apply_piece 1 _ _ (ix2 R q) 3 (by show 3 < 13; decide) S1000000x1 (val_main_v23 (F := Ideal) x0) rfl rfl 7 rfl
    (ix2 R j) (fun b hb => match b, hb with | ⟨0, _⟩, _ => rfl | ⟨1, _⟩, hb => absurd (Fin.ext rfl) hb) (by show 7 + j.val = q.val; omega)]
  exact passed x0 1 ![0, 3] _ 3 rfl rfl (by decide) R j

/-- Columns 8 to 10: the embedding of categorical column 4 (columns 6 to 8 of `W2`). -/
theorem ref_cols_8 (x0 : FVec Ideal S1000000x64 .f32) (x1 : FVec Ideal S2x18 .f32) (x2 : FVec Ideal S3x5 .f32)
    (R : Fin 1000000) (q : Fin 80) (j : Fin 3) (hq : q.val = 8 + j.val) :
    val_main_v82 (F := Ideal) x0 x1 x2 (ix2 R q)
      = x1 (ix2 (⟨gatheredRow 2 2#32 (FloatOps.fptosi 32 (x0 (ix2 R (4 : Fin 64)))), gatheredRow_lt 2 _ _ (by decide)⟩ : Fin 2)
          (⟨6 + j.val, by have := j.isLt; omega⟩ : Fin 18)) := by
  unfold val_main_v82
  rw [concatenate_apply_piece 1 _ _ (ix2 R q) 4 (by show 4 < 13; decide) S1000000x3 (val_main_v34 (F := Ideal) x0 x1) rfl rfl 8 rfl
    (ix2 R j) (fun b hb => match b, hb with | ⟨0, _⟩, _ => rfl | ⟨1, _⟩, hb => absurd (Fin.ext rfl) hb) (by show 8 + j.val = q.val; omega)]
  exact gathered2 x0 x1 ![0, 4] _ _ _ _ 4 rfl rfl ![0, 6] _ 6 rfl rfl (by decide) R j

/-- Column 11: column 5 of `x`, passed through. -/
theorem ref_cols_11 (x0 : FVec Ideal S1000000x64 .f32) (x1 : FVec Ideal S2x18 .f32) (x2 : FVec Ideal S3x5 .f32)
    (R : Fin 1000000) (q : Fin 80) (j : Fin 1) (hq : q.val = 11 + j.val) :
    val_main_v82 (F := Ideal) x0 x1 x2 (ix2 R q) = x0 (ix2 R (⟨5 + j.val, by have := j.isLt; omega⟩ : Fin 64)) := by
  unfold val_main_v82
  rw [concatenate_apply_piece 1 _ _ (ix2 R q) 5 (by show 5 < 13; decide) S1000000x1 (val_main_v35 (F := Ideal) x0) rfl rfl 11 rfl
    (ix2 R j) (fun b hb => match b, hb with | ⟨0, _⟩, _ => rfl | ⟨1, _⟩, hb => absurd (Fin.ext rfl) hb) (by show 11 + j.val = q.val; omega)]
  exact passed x0 1 ![0, 5] _ 5 rfl rfl (by decide) R j

/-- Columns 12 to 16: the embedding of categorical column 6 (all of `W3`). -/
theorem ref_cols_12 (x0 : FVec Ideal S1000000x64 .f32) (x1 : FVec Ideal S2x18 .f32) (x2 : FVec Ideal S3x5 .f32)
    (R : Fin 1000000) (q : Fin 80) (j : Fin 5) (hq : q.val = 12 + j.val) :
    val_main_v82 (F := Ideal) x0 x1 x2 (ix2 R q)
      = x2 (ix2 (⟨gatheredRow 3 3#32 (FloatOps.fptosi 32 (x0 (ix2 R (6 : Fin 64)))), gatheredRow_lt 3 _ _ (by decide)⟩ : Fin 3) j) := by
  unfold val_main_v82
  rw [concatenate_apply_piece 1 _ _ (ix2 R q) 6 (by show 6 < 13; decide) S1000000x5 (val_main_v45 (F := Ideal) x0 x2) rfl rfl 12 rfl
    (ix2 R j) (fun b hb => match b, hb with | ⟨0, _⟩, _ => rfl | ⟨1, _⟩, hb => absurd (Fin.ext rfl) hb) (by show 12 + j.val = q.val; omega)]
  exact gathered3 x0 x2 ![0, 6] _ _ _ _ 6 rfl rfl R j

/-- Columns 17 to 19: the embedding of categorical column 7 (columns 9 to 11 of `W2`). -/
theorem ref_cols_17 (x0 : FVec Ideal S1000000x64 .f32) (x1 : FVec Ideal S2x18 .f32) (x2 : FVec Ideal S3x5 .f32)
    (R : Fin 1000000) (q : Fin 80) (j : Fin 3) (hq : q.val = 17 + j.val) :
    val_main_v82 (F := Ideal) x0 x1 x2 (ix2 R q)
      = x1 (ix2 (⟨gatheredRow 2 2#32 (FloatOps.fptosi 32 (x0 (ix2 R (7 : Fin 64)))), gatheredRow_lt 2 _ _ (by decide)⟩ : Fin 2)
          (⟨9 + j.val, by have := j.isLt; omega⟩ : Fin 18)) := by
  unfold val_main_v82
  rw [concatenate_apply_piece 1 _ _ (ix2 R q) 7 (by show 7 < 13; decide) S1000000x3 (val_main_v56 (F := Ideal) x0 x1) rfl rfl 17 rfl
    (ix2 R j) (fun b hb => match b, hb with | ⟨0, _⟩, _ => rfl | ⟨1, _⟩, hb => absurd (Fin.ext rfl) hb) (by show 17 + j.val = q.val; omega)]
  exact gathered2 x0 x1 ![0, 7] _ _ _ _ 7 rfl rfl ![0, 9] _ 9 rfl rfl (by decide) R j

/-- Column 20: column 8 of `x`, passed through. -/
theorem ref_cols_20 (x0 : FVec Ideal S1000000x64 .f32) (x1 : FVec Ideal S2x18 .f32) (x2 : FVec Ideal S3x5 .f32)
    (R : Fin 1000000) (q : Fin 80) (j : Fin 1) (hq : q.val = 20 + j.val) :
    val_main_v82 (F := Ideal) x0 x1 x2 (ix2 R q) = x0 (ix2 R (⟨8 + j.val, by have := j.isLt; omega⟩ : Fin 64)) := by
  unfold val_main_v82
  rw [concatenate_apply_piece 1 _ _ (ix2 R q) 8 (by show 8 < 13; decide) S1000000x1 (val_main_v57 (F := Ideal) x0) rfl rfl 20 rfl
    (ix2 R j) (fun b hb => match b, hb with | ⟨0, _⟩, _ => rfl | ⟨1, _⟩, hb => absurd (Fin.ext rfl) hb) (by show 20 + j.val = q.val; omega)]
  exact passed x0 1 ![0, 8] _ 8 rfl rfl (by decide) R j

/-- Columns 21 to 23: the embedding of categorical column 9 (columns 12 to 14 of `W2`). -/
theorem ref_cols_21 (x0 : FVec Ideal S1000000x64 .f32) (x1 : FVec Ideal S2x18 .f32) (x2 : FVec Ideal S3x5 .f32)
    (R : Fin 1000000) (q : Fin 80) (j : Fin 3) (hq : q.val = 21 + j.val) :
    val_main_v82 (F := Ideal) x0 x1 x2 (ix2 R q)
      = x1 (ix2 (⟨gatheredRow 2 2#32 (FloatOps.fptosi 32 (x0 (ix2 R (9 : Fin 64)))), gatheredRow_lt 2 _ _ (by decide)⟩ : Fin 2)
          (⟨12 + j.val, by have := j.isLt; omega⟩ : Fin 18)) := by
  unfold val_main_v82
  rw [concatenate_apply_piece 1 _ _ (ix2 R q) 9 (by show 9 < 13; decide) S1000000x3 (val_main_v68 (F := Ideal) x0 x1) rfl rfl 21 rfl
    (ix2 R j) (fun b hb => match b, hb with | ⟨0, _⟩, _ => rfl | ⟨1, _⟩, hb => absurd (Fin.ext rfl) hb) (by show 21 + j.val = q.val; omega)]
  exact gathered2 x0 x1 ![0, 9] _ _ _ _ 9 rfl rfl ![0, 12] _ 12 rfl rfl (by decide) R j

/-- Column 24: column 10 of `x`, passed through. -/
theorem ref_cols_24 (x0 : FVec Ideal S1000000x64 .f32) (x1 : FVec Ideal S2x18 .f32) (x2 : FVec Ideal S3x5 .f32)
    (R : Fin 1000000) (q : Fin 80) (j : Fin 1) (hq : q.val = 24 + j.val) :
    val_main_v82 (F := Ideal) x0 x1 x2 (ix2 R q) = x0 (ix2 R (⟨10 + j.val, by have := j.isLt; omega⟩ : Fin 64)) := by
  unfold val_main_v82
  rw [concatenate_apply_piece 1 _ _ (ix2 R q) 10 (by show 10 < 13; decide) S1000000x1 (val_main_v69 (F := Ideal) x0) rfl rfl 24 rfl
    (ix2 R j) (fun b hb => match b, hb with | ⟨0, _⟩, _ => rfl | ⟨1, _⟩, hb => absurd (Fin.ext rfl) hb) (by show 24 + j.val = q.val; omega)]
  exact passed x0 1 ![0, 10] _ 10 rfl rfl (by decide) R j

/-- Columns 25 to 27: the embedding of categorical column 11 (columns 15 to 17 of `W2`). -/
theorem ref_cols_25 (x0 : FVec Ideal S1000000x64 .f32) (x1 : FVec Ideal S2x18 .f32) (x2 : FVec Ideal S3x5 .f32)
    (R : Fin 1000000) (q : Fin 80) (j : Fin 3) (hq : q.val = 25 + j.val) :
    val_main_v82 (F := Ideal) x0 x1 x2 (ix2 R q)
      = x1 (ix2 (⟨gatheredRow 2 2#32 (FloatOps.fptosi 32 (x0 (ix2 R (11 : Fin 64)))), gatheredRow_lt 2 _ _ (by decide)⟩ : Fin 2)
          (⟨15 + j.val, by have := j.isLt; omega⟩ : Fin 18)) := by
  unfold val_main_v82
  rw [concatenate_apply_piece 1 _ _ (ix2 R q) 11 (by show 11 < 13; decide) S1000000x3 (val_main_v80 (F := Ideal) x0 x1) rfl rfl 25 rfl
    (ix2 R j) (fun b hb => match b, hb with | ⟨0, _⟩, _ => rfl | ⟨1, _⟩, hb => absurd (Fin.ext rfl) hb) (by show 25 + j.val = q.val; omega)]
  exact gathered2 x0 x1 ![0, 11] _ _ _ _ 11 rfl rfl ![0, 15] _ 15 rfl rfl (by decide) R j

/-- Columns 28 to 79: columns 12 to 63 of `x`, passed through. -/
theorem ref_cols_28 (x0 : FVec Ideal S1000000x64 .f32) (x1 : FVec Ideal S2x18 .f32) (x2 : FVec Ideal S3x5 .f32)
    (R : Fin 1000000) (q : Fin 80) (j : Fin 52) (hq : q.val = 28 + j.val) :
    val_main_v82 (F := Ideal) x0 x1 x2 (ix2 R q) = x0 (ix2 R (⟨12 + j.val, by have := j.isLt; omega⟩ : Fin 64)) := by
  unfold val_main_v82
  rw [concatenate_apply_piece 1 _ _ (ix2 R q) 12 (by show 12 < 13; decide) S1000000x52 (val_main_v81 (F := Ideal) x0) rfl rfl 28 rfl
    (ix2 R j) (fun b hb => match b, hb with | ⟨0, _⟩, _ => rfl | ⟨1, _⟩, hb => absurd (Fin.ext rfl) hb) (by show 28 + j.val = q.val; omega)]
  exact passed x0 52 ![0, 12] _ 12 rfl rfl (by decide) R j

end Cert.RefPieceTable

end
-- ==== Proof.LibColumnLayout.lean ====
/-
  A vector kept as a column: the three layout operations a keepdims column meets, read at an element.

  A `vector.shape_cast` of an `[a]` vector to the column `[a, 1]` and back, and a `vector.broadcast` of a column `[a, 1]`
  along a new second axis to `[a, b]`: each reads the operand at the row of the element asked for.
-/
import Idealize.ShloMosaic.Lib.ValueIdx
import Idealize.ShloMosaic.Lib.Pipeline.Value

noncomputable section

namespace Idealize.ShloMosaic.ColumnLayout

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` cast to `[a]` reads, at `p`, the operand at `(p, 0)`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout

end
-- ==== Proof.KernelPayloads.lean ====
/-
  The kernel body's embedding arithmetic, read at one element.

  For a binary categorical column the body forms the column's ids, the 0/1 mask `[id = 1]` as a float column, and stores
  `row0 + mask * (row1 - row0)` with the two table rows broadcast down the block and the mask broadcast across it: at
  `(p, j)` that is `row0[j] + [id_p = 1] * (row1[j] - row0[j])`. For the ternary column it adds a second term with the mask
  `[id = 2]` and `row2 - row0`. Two of the binary columns' arithmetic is cut across the printed body's parts; as terms
  they are the same expression as the others.
-/
import proofs.«408796_j44555990729103_3_alg».proof.Proof.Gen.KernelIdeal.Skeleton
import proofs.«408796_j44555990729103_3_alg».proof.Proof.CategorySelect
import proofs.«408796_j44555990729103_3_alg».proof.Proof.LibColumnLayout
import Idealize.ShloMosaic.Lib.ValueLayout

noncomputable section

namespace Cert.KernelPayloads

open Idealize.ShloMosaic Idealize.ShloMosaic.ValueIdx Idealize.ShloMosaic.ColumnLayout Cert.CategorySelect
open Cert.KernelIdeal Cert.KernelIdeal.Gen

/-- An integer comparison of two vectors, read at an index. -/
theorem cmpi_apply {s : Shape} {w : Nat} (pr : CmpIPredicate) (a b : IVec s w) (i : s.Idx) :
    cmpi pr a b i = IntOp.cmpi pr (a i) (b i) := rfl

/-- A float vector converted to signed integers, read at an index. -/
theorem fptosi_apply {s : Shape} {φ : FTy} (w : Nat) (a : FVec Ideal s φ) (i : s.Idx) :
    fptosi w a i = FloatOps.fptosi w (a i) := rfl

/-- A binary column's payload at `(p, j)`. -/
theorem pay2_apply (v0 : Vec Ideal S8000x1 .f32) (v8 v10 : Vec Ideal S1x3 .f32) (p : Fin 8000) (j : Fin 3) :
    k0_pay2 (F := Ideal) v0 v8 v10 (ix2 p j)
      = sel2 (FloatOps.fptosi (F := Ideal) (φ := .f32) 32 (v0 (ix2 p (0 : Fin 1)))) (v8 (ix2 (0 : Fin 1) j)) (v10 (ix2 (0 : Fin 1) j)) := by
  unfold k0_pay2
  simp only [addf_apply, mulf_apply, subf_apply, sitofp_apply, extui_apply, cmpi_apply, fptosi_apply, broadcast_apply,
    broadcastTo_1b_ab_apply, broadcastTo_a1_ab_apply, shapeCast_a_1a_apply, shapeCast_1a_a_apply, shapeCast_a_a1_apply,
    shapeCast_a1_a_apply]
  rfl

/-- The other binary columns' payloads are the same expression. -/
theorem pay1_eq (v0 : Vec Ideal S8000x1 .f32) (v8 v10 : Vec Ideal S1x3 .f32) :
    k0_pay1 (F := Ideal) v0 v8 v10 = k0_pay2 v0 v8 v10 := rfl
theorem pay8_eq (v0 : Vec Ideal S8000x1 .f32) (v8 v10 : Vec Ideal S1x3 .f32) :
    k0_pay8 (F := Ideal) v0 v8 v10 = k0_pay2 v0 v8 v10 := rfl
theorem pay14_eq (v0 : Vec Ideal S8000x1 .f32) (v8 v10 : Vec Ideal S1x3 .f32) :
    k0_pay14 (F := Ideal) v0 v8 v10 = k0_pay2 v0 v8 v10 := rfl
/-- … also the two whose arithmetic the printed body cuts across its parts. -/
theorem pay7_eq (v0 : Vec Ideal S8000x1 .f32) (v8 v10 : Vec Ideal S1x3 .f32) :
    k0_pay7 (F := Ideal) (k0_pay3 v0) (k0_pay5 v8 v10) (k0_pay6 v8) = k0_pay2 v0 v8 v10 := rfl
theorem pay13_eq (v0 : Vec Ideal S8000x1 .f32) (v8 v10 : Vec Ideal S1x3 .f32) :
    k0_pay13 (F := Ideal) (k0_pay11 v0) (k0_pay12 v8) v10 = k0_pay2 v0 v8 v10 := rfl

/-- The ternary column's payload at `(p, j)`. -/
theorem pay10_apply (v69 : Vec Ideal S8000x1 .f32) (v82 v84 v86 : Vec Ideal S1x5 .f32) (p : Fin 8000) (j : Fin 5) :
    k0_pay10 (F := Ideal) (k0_pay9 v69) v82 v84 v86 (ix2 p j)
      = sel3 (FloatOps.fptosi (F := Ideal) (φ := .f32) 32 (v69 (ix2 p (0 : Fin 1)))) (v82 (ix2 (0 : Fin 1) j)) (v84 (ix2 (0 : Fin 1) j))
          (v86 (ix2 (0 : Fin 1) j)) := by
  unfold k0_pay10 k0_pay9
  simp only [addf_apply, mulf_apply, subf_apply, sitofp_apply, extui_apply, cmpi_apply, fptosi_apply, broadcast_apply,
    broadcastTo_1b_ab_apply, broadcastTo_a1_ab_apply, shapeCast_a_1a_apply, shapeCast_1a_a_apply, shapeCast_a_a1_apply,
    shapeCast_a1_a_apply]
  rfl

end Cert.KernelPayloads

end
-- ==== Proof.PreDecode.lean ====
/-
  What the precondition says, element by element.

  The printed precondition is one `and` of ten `jnp.all`s. Three say that every entry of `x`, `W2`, `W3` is
  below `+∞` in absolute value, that is, a real number. Seven say, one categorical column at a time, that the id the
  programs decode from the column (the entry converted to a 32-bit integer, toward zero) is `≥ 0` and below the
  column's number of categories. Read back at one row, the seven become: the id is one of the categories.
-/
import proofs.«408796_j44555990729103_3_alg».proof.Pre_finite_inputs
import proofs.«408796_j44555990729103_3_alg».proof.Proof.CategorySelect
import proofs.«408796_j44555990729103_3_alg».proof.Proof.ColumnRead
import Idealize.ShloMosaic.Lib.ReduceAll
import Idealize.ShloMosaic.Lib.ValueIdx
import Idealize.ShloMosaic.Lib.Pipeline.Value

noncomputable section

namespace Cert.PreDecode

open Idealize.ShloMosaic Idealize.ShloMosaic.ValueIdx Cert.Pre_finite_inputs Cert.CategorySelect

variable [Facts]
open Facts

/-- The scalar shape has one index. -/
instance : Subsingleton S_.Idx := ⟨fun _ _ => funext fun d => d.elim0⟩

/-- An extended real whose absolute value is below `+∞` (the f32 word `0x7F800000`) is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ a : ℝ, x = (a : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have hlt : max x (-x) < ⊤ := by
    by_contra hn
    simp [Ideal.cmp, hn] at h'
  rw [max_lt_iff] at hlt
  induction x using EReal.rec with
  | bot => simp at hlt
  | coe a => exact ⟨a, rfl⟩
  | top => simp at hlt

/-- `jnp.all(|x| < inf)` holding says every entry of `x` is a real number. -/
theorem entries_real {s : Shape} {axes : List (Fin s.rank)} (x : FVec Ideal s .f32)
    (hb : S_.BroadcastsInDim s (![] : Fin 0 → Fin s.rank)) (hr : s.ReducesTo axes S_) (init : IVec S_ 1)
    (e : Host.reduce IntOp.andi (cmpf .olt (Host.absf x) (broadcastInDim s ![] hb (constant S_ .f32 0x7F800000#32)))
      init hr h_S_ ix0 = 1#1) (i : s.Idx) : ∃ a : ℝ, x i = (a : EReal) :=
  real_of_abs_lt_inf (x i) (Host.reduce_andi_all _ _ hr h_S_ ix0 e i)

/-- The category id the programs decode from column `c` of row `r`: the entry converted to a signed 32-bit integer. -/
def idAt (x0 : FVec Ideal S1000000x64 .f32) (r : Fin 1000000) (c : Fin 64) : BitVec 32 :=
  FloatOps.fptosi 32 (x0 (ix2 r c))

/-- One categorical column's `jnp.all((id >= 0) & (id < n))` holding says both comparisons hold of the id at every row. -/
theorem column_ids (x0 : FVec Ideal S1000000x64 .f32) (off : Fin 2 → Nat) (hs : S1000000x64.Slices off S1000000x1)
    (c : Fin 64) (h0 : off 0 = 0) (h1 : off 1 = c.val) (n : BitVec 32) (init : IVec S_ 1)
    (e : Host.reduce IntOp.andi
      (andi
        (cmpi .sge (fptosi 32 (shapeCast S1000000 (extractStridedSlice S1000000x1 off x0 hs) shapeCasts_S1000000x1_S1000000))
          (broadcastInDim S1000000 ![] bcast_S_S1000000 (constantI S_ 32 0#32)))
        (cmpi .slt (fptosi 32 (shapeCast S1000000 (extractStridedSlice S1000000x1 off x0 hs) shapeCasts_S1000000x1_S1000000))
          (broadcastInDim S1000000 ![] bcast_S_S1000000 (constantI S_ 32 n))))
      init reducesTo_S1000000_S_d0 h_S_ ix0 = 1#1) (r : Fin 1000000) :
    IntOp.cmpi .sge (idAt x0 r c) 0#32 = 1#1 ∧ IntOp.cmpi .slt (idAt x0 r c) n = 1#1 := by
  have h := Host.reduce_andi_all _ _ reducesTo_S1000000_S_d0 h_S_ ix0 e (ix1 r)
  have hv : shapeCast S1000000 (extractStridedSlice S1000000x1 off x0 hs) shapeCasts_S1000000x1_S1000000 (ix1 r)
      = x0 (ix2 r c) := Cert.ColumnRead.column_entry x0 off hs shapeCasts_S1000000x1_S1000000 c h0 h1 r
  obtain ⟨ha, hb⟩ := IntOp.andi_eq_one.1 h
  have ha' : IntOp.cmpi .sge (FloatOps.fptosi 32
      (shapeCast S1000000 (extractStridedSlice S1000000x1 off x0 hs) shapeCasts_S1000000x1_S1000000 (ix1 r))) 0#32 = 1#1 := ha
  have hb' : IntOp.cmpi .slt (FloatOps.fptosi 32
      (shapeCast S1000000 (extractStridedSlice S1000000x1 off x0 hs) shapeCasts_S1000000x1_S1000000 (ix1 r))) n = 1#1 := hb
  rw [hv] at ha' hb'
  exact ⟨ha', hb'⟩

/-- What the precondition gives a proof: the two tables' entries are real numbers, and on every row the id of each binary
    column is 0 or 1 and the id of the ternary column is 0, 1 or 2. -/
structure Decoded (x0 : FVec Ideal S1000000x64 .f32) (x1 : FVec Ideal S2x18 .f32) (x2 : FVec Ideal S3x5 .f32) : Prop where
  w2_real : ∀ i, ∃ a : ℝ, x1 i = (a : EReal)
  w3_real : ∀ i, ∃ a : ℝ, x2 i = (a : EReal)
  id0 : ∀ r, idAt x0 r 0 = 0#32 ∨ idAt x0 r 0 = 1#32
  id2 : ∀ r, idAt x0 r 2 = 0#32 ∨ idAt x0 r 2 = 1#32
  id4 : ∀ r, idAt x0 r 4 = 0#32 ∨ idAt x0 r 4 = 1#32
  id6 : ∀ r, idAt x0 r 6 = 0#32 ∨ idAt x0 r 6 = 1#32 ∨ idAt x0 r 6 = 2#32
  id7 : ∀ r, idAt x0 r 7 = 0#32 ∨ idAt x0 r 7 = 1#32
  id9 : ∀ r, idAt x0 r 9 = 0#32 ∨ idAt x0 r 9 = 1#32
  id11 : ∀ r, idAt x0 r 11 = 0#32 ∨ idAt x0 r 11 = 1#32

theorem decode (x0 : FVec Ideal S1000000x64 .f32) (x1 : FVec Ideal S2x18 .f32) (x2 : FVec Ideal S3x5 .f32)
    (h : fn (F := Ideal) x0 x1 x2 = fun _ => 1#1) : Decoded x0 x1 x2 := by
  have h' := congrFun h ix0
  dsimp only [fn, fn_part1, fn_part2, fn_part3, fn_part4] at h'
  obtain ⟨hfin, hcat⟩ := IntOp.andi_eq_one.1 h'
  obtain ⟨hfin01, hfin2⟩ := IntOp.andi_eq_one.1 hfin
  obtain ⟨_, hfin1⟩ := IntOp.andi_eq_one.1 hfin01
  obtain ⟨hc9, e11⟩ := IntOp.andi_eq_one.1 hcat
  obtain ⟨hc7, e9⟩ := IntOp.andi_eq_one.1 hc9
  obtain ⟨hc6, e7⟩ := IntOp.andi_eq_one.1 hc7
  obtain ⟨hc4, e6⟩ := IntOp.andi_eq_one.1 hc6
  obtain ⟨hc2, e4⟩ := IntOp.andi_eq_one.1 hc4
  obtain ⟨e0, e2⟩ := IntOp.andi_eq_one.1 hc2
  exact {
    w2_real := entries_real x1 _ _ _ hfin1
    w3_real := entries_real x2 _ _ _ hfin2
    id0 := fun r => by obtain ⟨a, b⟩ := column_ids x0 _ _ 0 rfl rfl 2#32 _ e0 r; exact id_lt_two a b
    id2 := fun r => by obtain ⟨a, b⟩ := column_ids x0 _ _ 2 rfl rfl 2#32 _ e2 r; exact id_lt_two a b
    id4 := fun r => by obtain ⟨a, b⟩ := column_ids x0 _ _ 4 rfl rfl 2#32 _ e4 r; exact id_lt_two a b
    id6 := fun r => by obtain ⟨a, b⟩ := column_ids x0 _ _ 6 rfl rfl 3#32 _ e6 r; exact id_lt_three a b
    id7 := fun r => by obtain ⟨a, b⟩ := column_ids x0 _ _ 7 rfl rfl 2#32 _ e7 r; exact id_lt_two a b
    id9 := fun r => by obtain ⟨a, b⟩ := column_ids x0 _ _ 9 rfl rfl 2#32 _ e9 r; exact id_lt_two a b
    id11 := fun r => by obtain ⟨a, b⟩ := column_ids x0 _ _ 11 rfl rfl 2#32 _ e11 r; exact id_lt_two a b }

end Cert.PreDecode

end
-- ==== Proof.BlockValue.lean ====
/-
  What one grid point leaves in the output block is the reference's result on the block's rows.

  The body fills its `[8000, 80]` output block with thirteen stores that tile the block's columns. The rows of the block
  are rows of the array (`row` below says which), and the tables are whole. Each stored piece agrees, element by element,
  with the reference's result at the row and column the element lands on: a continuous stretch of columns is copied; an
  embedding piece is the kernel's sum over the table's rows weighted by the id's 0/1 factors, which on an id that is a
  category and finite table entries is the row the reference gathers. So the block, read back after the stores, is the
  reference's result there.
-/
import proofs.«408796_j44555990729103_3_alg».proof.Proof.Gen.KernelIdeal.Value
import proofs.«408796_j44555990729103_3_alg».proof.Proof.RefPieceTable
import proofs.«408796_j44555990729103_3_alg».proof.Proof.KernelPayloads
import proofs.«408796_j44555990729103_3_alg».proof.Proof.PreDecode

set_option maxRecDepth 16384

noncomputable section

namespace Cert.BlockValue

open Idealize.ShloMosaic Idealize.ShloMosaic.TcCoe Idealize.ShloMosaic.Tactic Idealize.SL.Sem
open Idealize.ShloMosaic.ValueIdx
open Cert.KernelIdeal Cert.KernelIdeal.Gen
open Cert.CategorySelect Cert.KernelPayloads

/-- The reference's result as a function of the three argument arrays. -/
abbrev refOut (X0 : FVec Ideal S1000000x64 .f32) (X1 : FVec Ideal S2x18 .f32) (X2 : FVec Ideal S3x5 .f32) :=
  Cert.ReferenceIdeal.Read.val_main_v82 (F := Ideal) X0 X1 X2

/-- The reference's result on the rows a block covers: block element `(p, q)` is array element `(row p, q)`. -/
def onRows (X0 : FVec Ideal S1000000x64 .f32) (X1 : FVec Ideal S2x18 .f32) (X2 : FVec Ideal S3x5 .f32)
    (row : Fin 8000 → Fin 1000000) : S8000x80.Idx → EReal :=
  fun y => refOut X0 X1 X2 (ix2 (row (y 0)) (y 1))

theorem onRows_ix2 (X0 : FVec Ideal S1000000x64 .f32) (X1 : FVec Ideal S2x18 .f32) (X2 : FVec Ideal S3x5 .f32)
    (row : Fin 8000 → Fin 1000000) (p : Fin 8000) (q : Fin 80) :
    onRows X0 X1 X2 row (ix2 p q) = refOut X0 X1 X2 (ix2 (row p) q) := rfl

/-- Where element `(p, j)` of a unit-stride rectangle at offsets `(o0, o1)` sits in its array. -/
theorem unit_idx_ix2 {n m n' m' : Nat} (o0 o1 : Nat)
    (inb : ∀ a, (![o0, o1] : Fin 2 → Nat) a + (![n', m'] : Fin 2 → Nat) a ≤ (⟨2, ![n, m]⟩ : Shape).size a)
    (p : Fin n') (j : Fin m') (P : Fin n) (Q : Fin m) (hP : P.val = o0 + p.val) (hQ : Q.val = o1 + j.val) :
    (Rect.unit (s := ⟨2, ![n, m]⟩) ![o0, o1] ![n', m'] inb).idx (ix2 p j) = ix2 P Q := by
  funext a; refine Fin.ext ?_
  match a with
  | ⟨0, _⟩ => show o0 + 1 * p.val = P.val; omega
  | ⟨1, _⟩ => show o1 + 1 * j.val = Q.val; omega

section Pieces

variable (x0 : Vec Ideal S8000x64 .f32) (X0 : FVec Ideal S1000000x64 .f32) (X1 : FVec Ideal S2x18 .f32)
  (X2 : FVec Ideal S3x5 .f32) (row : Fin 8000 → Fin 1000000)
  (hx0 : ∀ (p : Fin 8000) (cc : Fin 64), x0 (ix2 p cc) = X0 (ix2 (row p) cc))
  (arg1 : Memref sig .tc .vmem S8000x64 .f32) (harg1 : arg1.IsWhole)
  (arg2 : Memref sig .tc .vmem S2x18 .f32) (harg2 : arg2.IsWhole)
  (arg3 : Memref sig .tc .vmem S3x5 .f32) (harg3 : arg3.IsWhole)

include hx0

/-- A stored stretch of `w` continuous columns, loaded from column `c` of the input block and stored at column `o`, is the
    reference's result on those columns. -/
theorem pass_piece (o c w : Nat) (hc : c + w ≤ 64)
    (inbO : ∀ a, (![0, o] : Fin 2 → Nat) a + (![8000, w] : Fin 2 → Nat) a ≤ S8000x80.size a)
    (inbI : ∀ a, (![0, c] : Fin 2 → Nat) a + (![8000, w] : Fin 2 → Nat) a ≤ S8000x64.size a)
    (href : ∀ (R : Fin 1000000) (q : Fin 80) (j : Fin w), q.val = o + j.val →
      refOut X0 X1 X2 (ix2 R q) = X0 (ix2 R (⟨c + j.val, by have := j.isLt; omega⟩ : Fin 64)))
    (x : (Rect.unit (s := S8000x80) ![0, o] ![8000, w] inbO).shape.Idx) :
    View.readAt (Elt Ideal) arg1.view (Rect.unit (s := S8000x64) ![0, c] ![8000, w] inbI).toLoadRect (harg1.unread x0) x
      = onRows X0 X1 X2 row ((Rect.unit (s := S8000x80) ![0, o] ![8000, w] inbO).emb x) := by
  revert x
  show ∀ x : (⟨2, ![8000, w]⟩ : Shape).Idx, _
  intro x
  obtain ⟨p, j, rfl⟩ : ∃ (p : Fin 8000) (j : Fin w), x = ix2 p j := ⟨x 0, x 1, eq_ix2 x⟩
  have hj := j.isLt
  have ho : o + w ≤ 80 := by have := inbO 1; simpa using this
  have he : (Rect.unit (s := S8000x80) ![0, o] ![8000, w] inbO).emb (ix2 p j) = ix2 p (⟨o + j.val, by omega⟩ : Fin 80) :=
    unit_idx_ix2 0 o inbO p j p ⟨o + j.val, by omega⟩ (by omega) rfl
  rw [he, onRows_ix2, href (row p) _ j rfl]
  simp only [View.readAt_eq_ld, harg1.read_unread]
  show x0 ((Rect.unit (s := S8000x64) ![0, c] ![8000, w] inbI).idx (ix2 p j)) = _
  rw [unit_idx_ix2 0 c inbI p j p ⟨c + j.val, by have := j.isLt; omega⟩ (by omega) rfl]
  exact hx0 p _

/-- A binary categorical column's stored piece (id column `c` of the input block, columns `s … s+2` of `W2`, stored at column
    `o`) is the reference's result on those columns, when the column's ids are categories and `W2`'s entries are real. -/
theorem cat2_piece (hreal : ∀ i, ∃ a : ℝ, X1 i = (a : EReal)) (o s : Nat) (c : Fin 64) (hs : s + 3 ≤ 18)
    (hid : ∀ R : Fin 1000000, FloatOps.fptosi 32 (X0 (ix2 R c)) = 0#32 ∨ FloatOps.fptosi 32 (X0 (ix2 R c)) = 1#32)
    (inbO : ∀ a, (![0, o] : Fin 2 → Nat) a + (![8000, 3] : Fin 2 → Nat) a ≤ S8000x80.size a)
    (inbC : ∀ a, (![0, c.val] : Fin 2 → Nat) a + (![8000, 1] : Fin 2 → Nat) a ≤ S8000x64.size a)
    (inb0 : ∀ a, (![0, s] : Fin 2 → Nat) a + (![1, 3] : Fin 2 → Nat) a ≤ S2x18.size a)
    (inb1 : ∀ a, (![1, s] : Fin 2 → Nat) a + (![1, 3] : Fin 2 → Nat) a ≤ S2x18.size a)
    (href : ∀ (R : Fin 1000000) (q : Fin 80) (j : Fin 3), q.val = o + j.val →
      refOut X0 X1 X2 (ix2 R q)
        = X1 (ix2 (⟨gatheredRow 2 2#32 (FloatOps.fptosi 32 (X0 (ix2 R c))), Cert.RefGather.gatheredRow_lt 2 _ _ (by decide)⟩ : Fin 2)
            (⟨s + j.val, by have := j.isLt; omega⟩ : Fin 18)))
    (x : (Rect.unit (s := S8000x80) ![0, o] ![8000, 3] inbO).shape.Idx) :
    k0_pay2 (F := Ideal)
        (View.readAt (Elt Ideal) arg1.view (Rect.unit (s := S8000x64) ![0, c.val] ![8000, 1] inbC).toLoadRect (harg1.unread x0))
        (View.readAt (Elt Ideal) arg2.view (Rect.unit (s := S2x18) ![0, s] ![1, 3] inb0).toLoadRect (harg2.unread X1))
        (View.readAt (Elt Ideal) arg2.view (Rect.unit (s := S2x18) ![1, s] ![1, 3] inb1).toLoadRect (harg2.unread X1)) x
      = onRows X0 X1 X2 row ((Rect.unit (s := S8000x80) ![0, o] ![8000, 3] inbO).emb x) := by
  revert x
  show ∀ x : (⟨2, ![8000, 3]⟩ : Shape).Idx, _
  intro x
  obtain ⟨p, j, rfl⟩ : ∃ (p : Fin 8000) (j : Fin 3), x = ix2 p j := ⟨x 0, x 1, eq_ix2 x⟩
  have hj := j.isLt
  have ho : o + 3 ≤ 80 := by have := inbO 1; simpa using this
  have he : (Rect.unit (s := S8000x80) ![0, o] ![8000, 3] inbO).emb (ix2 p j) = ix2 p (⟨o + j.val, by omega⟩ : Fin 80) :=
    unit_idx_ix2 0 o inbO p j p ⟨o + j.val, by omega⟩ (by omega) rfl
  rw [he, onRows_ix2, href (row p) _ j rfl, pay2_apply]
  simp only [View.readAt_eq_ld, harg1.read_unread, harg2.read_unread]
  have hc : View.ld x0 (Rect.unit (s := S8000x64) ![0, c.val] ![8000, 1] inbC) (ix2 p (0 : Fin 1)) = X0 (ix2 (row p) c) := by
    show x0 ((Rect.unit (s := S8000x64) ![0, c.val] ![8000, 1] inbC).idx (ix2 p (0 : Fin 1))) = _
    rw [unit_idx_ix2 0 c.val inbC p (0 : Fin 1) p c (by omega) rfl]
    exact hx0 p c
  have hr0 : View.ld (Val := Elt Ideal) (e' := .f32) X1 (Rect.unit (s := S2x18) ![0, s] ![1, 3] inb0) (ix2 (0 : Fin 1) j)
      = X1 (ix2 (0 : Fin 2) (⟨s + j.val, by omega⟩ : Fin 18)) := by
    show X1 ((Rect.unit (s := S2x18) ![0, s] ![1, 3] inb0).idx (ix2 (0 : Fin 1) j)) = _
    rw [unit_idx_ix2 0 s inb0 (0 : Fin 1) j (0 : Fin 2) ⟨s + j.val, by omega⟩ rfl rfl]
  have hr1 : View.ld (Val := Elt Ideal) (e' := .f32) X1 (Rect.unit (s := S2x18) ![1, s] ![1, 3] inb1) (ix2 (0 : Fin 1) j)
      = X1 (ix2 (1 : Fin 2) (⟨s + j.val, by omega⟩ : Fin 18)) := by
    show X1 ((Rect.unit (s := S2x18) ![1, s] ![1, 3] inb1).idx (ix2 (0 : Fin 1) j)) = _
    rw [unit_idx_ix2 1 s inb1 (0 : Fin 1) j (1 : Fin 2) ⟨s + j.val, by omega⟩ rfl rfl]
  rw [hc, hr0, hr1]
  exact sel2_eq_gathered (fun k => X1 (ix2 k (⟨s + j.val, by omega⟩ : Fin 18))) (fun k => hreal _) (hid (row p)) _ rfl

/-- The ternary categorical column's stored piece (id column 6 of the input block, all of `W3`, stored at column 12) is the
    reference's result on those columns, when the ids are categories and `W3`'s entries are real. -/
theorem cat3_piece (hreal : ∀ i, ∃ a : ℝ, X2 i = (a : EReal)) (o : Nat) (c : Fin 64)
    (hid : ∀ R : Fin 1000000, FloatOps.fptosi 32 (X0 (ix2 R c)) = 0#32 ∨ FloatOps.fptosi 32 (X0 (ix2 R c)) = 1#32
      ∨ FloatOps.fptosi 32 (X0 (ix2 R c)) = 2#32)
    (inbO : ∀ a, (![0, o] : Fin 2 → Nat) a + (![8000, 5] : Fin 2 → Nat) a ≤ S8000x80.size a)
    (inbC : ∀ a, (![0, c.val] : Fin 2 → Nat) a + (![8000, 1] : Fin 2 → Nat) a ≤ S8000x64.size a)
    (inb0 : ∀ a, (![0, 0] : Fin 2 → Nat) a + (![1, 5] : Fin 2 → Nat) a ≤ S3x5.size a)
    (inb1 : ∀ a, (![1, 0] : Fin 2 → Nat) a + (![1, 5] : Fin 2 → Nat) a ≤ S3x5.size a)
    (inb2 : ∀ a, (![2, 0] : Fin 2 → Nat) a + (![1, 5] : Fin 2 → Nat) a ≤ S3x5.size a)
    (href : ∀ (R : Fin 1000000) (q : Fin 80) (j : Fin 5), q.val = o + j.val →
      refOut X0 X1 X2 (ix2 R q)
        = X2 (ix2 (⟨gatheredRow 3 3#32 (FloatOps.fptosi 32 (X0 (ix2 R c))), Cert.RefGather.gatheredRow_lt 3 _ _ (by decide)⟩ : Fin 3) j))
    (x : (Rect.unit (s := S8000x80) ![0, o] ![8000, 5] inbO).shape.Idx) :
    k0_pay10 (F := Ideal)
        (k0_pay9 (View.readAt (Elt Ideal) arg1.view (Rect.unit (s := S8000x64) ![0, c.val] ![8000, 1] inbC).toLoadRect (harg1.unread x0)))
        (View.readAt (Elt Ideal) arg3.view (Rect.unit (s := S3x5) ![0, 0] ![1, 5] inb0).toLoadRect (harg3.unread X2))
        (View.readAt (Elt Ideal) arg3.view (Rect.unit (s := S3x5) ![1, 0] ![1, 5] inb1).toLoadRect (harg3.unread X2))
        (View.readAt (Elt Ideal) arg3.view (Rect.unit (s := S3x5) ![2, 0] ![1, 5] inb2).toLoadRect (harg3.unread X2)) x
      = onRows X0 X1 X2 row ((Rect.unit (s := S8000x80) ![0, o] ![8000, 5] inbO).emb x) := by
  revert x
  show ∀ x : (⟨2, ![8000, 5]⟩ : Shape).Idx, _
  intro x
  obtain ⟨p, j, rfl⟩ : ∃ (p : Fin 8000) (j : Fin 5), x = ix2 p j := ⟨x 0, x 1, eq_ix2 x⟩
  have hj := j.isLt
  have ho : o + 5 ≤ 80 := by have := inbO 1; simpa using this
  have he : (Rect.unit (s := S8000x80) ![0, o] ![8000, 5] inbO).emb (ix2 p j) = ix2 p (⟨o + j.val, by omega⟩ : Fin 80) :=
    unit_idx_ix2 0 o inbO p j p ⟨o + j.val, by omega⟩ (by omega) rfl
  rw [he, onRows_ix2, href (row p) _ j rfl, pay10_apply]
  simp only [View.readAt_eq_ld, harg1.read_unread, harg3.read_unread]
  have hc : View.ld x0 (Rect.unit (s := S8000x64) ![0, c.val] ![8000, 1] inbC) (ix2 p (0 : Fin 1)) = X0 (ix2 (row p) c) := by
    show x0 ((Rect.unit (s := S8000x64) ![0, c.val] ![8000, 1] inbC).idx (ix2 p (0 : Fin 1))) = _
    rw [unit_idx_ix2 0 c.val inbC p (0 : Fin 1) p c (by omega) rfl]
    exact hx0 p c
  have hr : ∀ (kv : Nat) (hk : kv < 3) (inbk : ∀ a, (![kv, 0] : Fin 2 → Nat) a + (![1, 5] : Fin 2 → Nat) a ≤ S3x5.size a),
      View.ld (Val := Elt Ideal) (e' := .f32) X2 (Rect.unit (s := S3x5) ![kv, 0] ![1, 5] inbk) (ix2 (0 : Fin 1) j)
        = X2 (ix2 (⟨kv, hk⟩ : Fin 3) j) := by
    intro kv hk inbk
    show X2 ((Rect.unit (s := S3x5) ![kv, 0] ![1, 5] inbk).idx (ix2 (0 : Fin 1) j)) = _
    rw [unit_idx_ix2 kv 0 inbk (0 : Fin 1) j ⟨kv, hk⟩ j (by show kv = kv + 0; omega) (by omega)]
  rw [hc, hr 0 (by decide) inb0, hr 1 (by decide) inb1, hr 2 (by decide) inb2]
  exact sel3_eq_gathered (fun k => X2 (ix2 k j)) (fun k => hreal _) (hid (row p)) _ rfl

end Pieces

/-! ## The whole output block -/

/-- THE BLOCK after the body: the reference's result on the block's rows. The thirteen stores tile the block (the generated
    frame's cover), and each agrees with the reference there: the pieces in the order the run lists them, last store first. -/
theorem out_block (c : Dev nD) (i : grid0.Coords) (arg1 : Memref sig .tc .vmem S8000x64 .f32) (harg1 : arg1.IsWhole)
    (arg2 : Memref sig .tc .vmem S2x18 .f32) (harg2 : arg2.IsWhole) (arg3 : Memref sig .tc .vmem S3x5 .f32) (harg3 : arg3.IsWhole)
    (arg4 : Memref sig .tc .vmem S8000x80 .f32) (harg4 : arg4.IsWhole)
    (x0 : Vec Ideal S8000x64 .f32) (x1 : Vec Ideal S2x18 .f32) (x2 : Vec Ideal S3x5 .f32)
    (X0 : FVec Ideal S1000000x64 .f32) (X1 : FVec Ideal S2x18 .f32) (X2 : FVec Ideal S3x5 .f32)
    (row : Fin 8000 → Fin 1000000) (hx0 : ∀ (p : Fin 8000) (cc : Fin 64), x0 (ix2 p cc) = X0 (ix2 (row p) cc))
    (hx1 : x1 = X1) (hx2 : x2 = X2) (hd : Cert.PreDecode.Decoded X0 X1 X2) (y : S8000x80.Idx) :
    out0_A_3 (F := Ideal) c i arg1 harg1 arg2 harg2 arg3 harg3 arg4 harg4 x0 x1 x2 y = onRows X0 X1 X2 row y := by
  subst hx1 hx2
  unfold out0_A_3
  refine View.read_writes_apply_of_pieces _ _ (onRows X0 x1 x2 row) _ ?_ y
    (cover0_A_3 c i arg1 harg1 arg2 harg2 arg3 harg3 arg4 harg4 x0 x1 x2 y)
  unfold kernelRun0_A
  dsimp only
  sl_unfold_words
  intro pc hpc
  simp only [List.mem_cons, List.not_mem_nil, or_false] at hpc
  rcases hpc with rfl | rfl | rfl | rfl | rfl | rfl | rfl | rfl | rfl | rfl | rfl | rfl | rfl
  · exact pass_piece x0 X0 x1 x2 row hx0 arg1 harg1 28 12 52 (by decide) (by decide) (by decide) (Cert.RefPieceTable.ref_cols_28 X0 x1 x2)
  · intro x
    exact (congrFun (pay1_eq _ _ _) x).trans (cat2_piece x0 X0 x1 x2 row hx0 arg1 harg1 arg2 harg2 hd.w2_real 25 15 11
      (by decide) hd.id11 (by decide) (by decide) (by decide) (by decide) (Cert.RefPieceTable.ref_cols_25 X0 x1 x2) x)
  · exact pass_piece x0 X0 x1 x2 row hx0 arg1 harg1 24 10 1 (by decide) (by decide) (by decide) (Cert.RefPieceTable.ref_cols_24 X0 x1 x2)
  · intro x
    exact (congrFun (pay14_eq _ _ _) x).trans (cat2_piece x0 X0 x1 x2 row hx0 arg1 harg1 arg2 harg2 hd.w2_real 21 12 9
      (by decide) hd.id9 (by decide) (by decide) (by decide) (by decide) (Cert.RefPieceTable.ref_cols_21 X0 x1 x2) x)
  · exact pass_piece x0 X0 x1 x2 row hx0 arg1 harg1 20 8 1 (by decide) (by decide) (by decide) (Cert.RefPieceTable.ref_cols_20 X0 x1 x2)
  · intro x
    exact (congrFun (pay13_eq _ _ _) x).trans (cat2_piece x0 X0 x1 x2 row hx0 arg1 harg1 arg2 harg2 hd.w2_real 17 9 7
      (by decide) hd.id7 (by decide) (by decide) (by decide) (by decide) (Cert.RefPieceTable.ref_cols_17 X0 x1 x2) x)
  · exact cat3_piece x0 X0 x1 x2 row hx0 arg1 harg1 arg3 harg3 hd.w3_real 12 6 hd.id6 (by decide) (by decide) (by decide) (by decide) (by decide)
      (Cert.RefPieceTable.ref_cols_12 X0 x1 x2)
  · exact pass_piece x0 X0 x1 x2 row hx0 arg1 harg1 11 5 1 (by decide) (by decide) (by decide) (Cert.RefPieceTable.ref_cols_11 X0 x1 x2)
  · intro x
    exact (congrFun (pay8_eq _ _ _) x).trans (cat2_piece x0 X0 x1 x2 row hx0 arg1 harg1 arg2 harg2 hd.w2_real 8 6 4
      (by decide) hd.id4 (by decide) (by decide) (by decide) (by decide) (Cert.RefPieceTable.ref_cols_8 X0 x1 x2) x)
  · exact pass_piece x0 X0 x1 x2 row hx0 arg1 harg1 7 3 1 (by decide) (by decide) (by decide) (Cert.RefPieceTable.ref_cols_7 X0 x1 x2)
  · intro x
    exact (congrFun (pay7_eq _ _ _) x).trans (cat2_piece x0 X0 x1 x2 row hx0 arg1 harg1 arg2 harg2 hd.w2_real 4 3 2
      (by decide) hd.id2 (by decide) (by decide) (by decide) (by decide) (Cert.RefPieceTable.ref_cols_4 X0 x1 x2) x)
  · exact pass_piece x0 X0 x1 x2 row hx0 arg1 harg1 3 1 1 (by decide) (by decide) (by decide) (Cert.RefPieceTable.ref_cols_3 X0 x1 x2)
  · exact cat2_piece x0 X0 x1 x2 row hx0 arg1 harg1 arg2 harg2 hd.w2_real 0 0 0
      (by decide) hd.id0 (by decide) (by decide) (by decide) (by decide) (Cert.RefPieceTable.ref_cols_0 X0 x1 x2)

/-! ## From the blocks to the array -/

section Run

variable (m : (ℓ : Loc nD τ sig) → Buf (Elt Ideal) ℓ)

/-- The printed index maps, decided over the 125 grid points: the input and the output move down their arrays one block of
    8000 rows per point, all columns; the two tables are fetched whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the input block at point `t` is row `8000 t + p` of `x`. -/
theorem iblk0_apply (c : Dev nD) (t : Fin cfg0.N) (p : Fin 8000) (cc : Fin 64)
    (h : 8000 * t.val + p.val < 1000000) :
    (iblk m c 0 t : Vec Ideal S8000x64 .f32) (ix2 p cc) = V m c main_arg0 (ix2 (⟨8000 * t.val + p.val, h⟩ : Fin 1000000) cc) := by
  obtain ⟨e00, e01, -⟩ := idx_facts t
  show V m c main_arg0 (((cfg0.win 0).blk t).view.emb (ix2 p cc)) = _
  congr 1
  funext a; apply Fin.ext
  match a with
  | ⟨0, _⟩ => show win0_0.index t (0 : Fin 2) * 8000 + 1 * p.val = 8000 * t.val + p.val; omega
  | ⟨1, _⟩ => show win0_0.index t (1 : Fin 2) * 64 + 1 * cc.val = cc.val; omega

/-- The block of `W2` at every point is `W2`. -/
theorem iblk1_eq (c : Dev nD) (t : Fin cfg0.N) : (iblk m c 1 t : Vec Ideal S2x18 .f32) = V m c main_arg1 := by
  obtain ⟨-, -, e10, e11, -⟩ := idx_facts t
  funext y
  show V m c main_arg1 (((cfg0.win 1).blk t).view.emb y) = V m c main_arg1 y
  congr 1
  funext a; apply Fin.ext
  match a with
  | ⟨0, _⟩ => show win0_1.index t (0 : Fin 2) * 2 + 1 * (y 0).val = (y 0).val; omega
  | ⟨1, _⟩ => show win0_1.index t (1 : Fin 2) * 18 + 1 * (y 1).val = (y 1).val; omega

/-- The block of `W3` at every point is `W3`. -/
theorem iblk2_eq (c : Dev nD) (t : Fin cfg0.N) : (iblk m c 2 t : Vec Ideal S3x5 .f32) = V m c main_arg2 := by
  obtain ⟨-, -, -, -, e20, e21, -⟩ := idx_facts t
  funext y
  show V m c main_arg2 (((cfg0.win 2).blk t).view.emb y) = V m c main_arg2 y
  congr 1
  funext a; apply Fin.ext
  match a with
  | ⟨0, _⟩ => show win0_2.index t (0 : Fin 2) * 3 + 1 * (y 0).val = (y 0).val; omega
  | ⟨1, _⟩ => show win0_2.index t (1 : Fin 2) * 5 + 1 * (y 1).val = (y 1).val; omega

/-- WHAT POINT `t` WRITES BACK is block `t` of the reference's result of the argument arrays. -/
theorem flushed_eq (c : Dev nD) (hd : Cert.PreDecode.Decoded (V m c main_arg0) (V m c main_arg1) (V m c main_arg2))
    (t : Fin cfg0.N) :
    (dats m 0 c).flushed 3 t
      = ((cfg0.win 3).blk t).view.read (Elt Ideal) (refOut (V m c main_arg0) (V m c main_arg1) (V m c main_arg2)) := by
  rw [Cert.KernelIdeal.Value.flushed3_A]
  obtain ⟨-, -, -, -, -, -, e30, e31⟩ := idx_facts t
  have hN : cfg0.N = 125 := N_0
  have ht := t.isLt
  have hrow : ∀ p : Fin 8000, 8000 * t.val + p.val < 1000000 := fun p => by have := p.isLt; omega
  funext y
  show out0_A_3 c (grid0.coords t) (ms0_0 t) (hs0_0 t) (ms0_1 t) (hs0_1 t) (ms0_2 t) (hs0_2 t) (ms0_3 t) (hs0_3 t)
      (iblk m c 0 t) (iblk m c 1 t) (iblk m c 2 t) y
    = refOut (V m c main_arg0) (V m c main_arg1) (V m c main_arg2) (((cfg0.win 3).blk t).view.emb y)
  refine (out_block c (grid0.coords t) (ms0_0 t) (hs0_0 t) (ms0_1 t) (hs0_1 t) (ms0_2 t) (hs0_2 t) (ms0_3 t) (hs0_3 t)
    (iblk m c 0 t) (iblk m c 1 t) (iblk m c 2 t) (V m c main_arg0) (V m c main_arg1) (V m c main_arg2)
    (fun p => ⟨8000 * t.val + p.val, hrow p⟩) (fun p cc => iblk0_apply m c t p cc (hrow p))
    (iblk1_eq m c t) (iblk2_eq m c t) hd y).trans ?_
  show refOut (V m c main_arg0) (V m c main_arg1) (V m c main_arg2)
      (ix2 (⟨8000 * t.val + (y 0).val, hrow (y 0)⟩ : Fin 1000000) (y 1)) = _
  congr 1
  funext a; apply Fin.ext
  match a with
  | ⟨0, _⟩ => show 8000 * t.val + (y 0).val = win0_3.index t (0 : Fin 2) * 8000 + 1 * (y 0).val; omega
  | ⟨1, _⟩ => show (y 1).val = win0_3.index t (1 : Fin 2) * 80 + 1 * (y 1).val; omega

/-- An index of the array is in point `t`'s block iff each coordinate is in the block's range on its axis. -/
theorem mem_blk3 (t : Fin cfg0.N) (i : S1000000x80.Idx) :
    i ∈ ((cfg0.win 3).blk t).view.set ↔ ∀ a : Fin 2, win0_3.index t a * S8000x80.size a ≤ (i a).val
      ∧ (i a).val < win0_3.index t a * S8000x80.size a + S8000x80.size a := by
  show i ∈ ((View.whole main_v0).slice (win0_3.rect t)).set ↔ _
  rw [View.set_slice_whole, Rect.mem_set_unit]
  exact Iff.rfl

/-- Every row of the output lies in the block of the point its number divided by 8000 names. -/
theorem cover3 (i : S1000000x80.Idx) :
    ∃ t : Fin cfg0.N, (cfg0.win 3).flush t = true ∧ i ∈ ((cfg0.win 3).blk t).view.set := by
  have hi0 : (i 0).val < 1000000 := (i 0).isLt
  have hi1 : (i 1).val < 80 := (i 1).isLt
  have hN : cfg0.N = 125 := N_0
  have hlt : (i 0).val / 8000 < cfg0.N := by omega
  obtain ⟨-, -, -, -, -, -, e30, e31⟩ := idx_facts ⟨(i 0).val / 8000, hlt⟩
  refine ⟨⟨(i 0).val / 8000, hlt⟩, flush0_3 _, ?_⟩
  rw [mem_blk3]
  intro a
  match a with
  | ⟨0, _⟩ =>
    show win0_3.index ⟨(i 0).val / 8000, hlt⟩ (0 : Fin 2) * 8000 ≤ (i 0).val
      ∧ (i 0).val < win0_3.index ⟨(i 0).val / 8000, hlt⟩ (0 : Fin 2) * 8000 + 8000
    rw [e30]; show (i 0).val / 8000 * 8000 ≤ (i 0).val ∧ (i 0).val < (i 0).val / 8000 * 8000 + 8000; omega
  | ⟨1, _⟩ =>
    show win0_3.index ⟨(i 0).val / 8000, hlt⟩ (1 : Fin 2) * 80 ≤ (i 1).val
      ∧ (i 1).val < win0_3.index ⟨(i 0).val / 8000, hlt⟩ (1 : Fin 2) * 80 + 80
    rw [e31]; omega

/-- THE OUTPUT ARRAY after the run is the reference's result of the argument arrays. -/
theorem final (c : Dev nD) (hd : Cert.PreDecode.Decoded (V m c main_arg0) (V m c main_arg1) (V m c main_arg2)) :
    (dats m 0 c).arrAt 3 cfg0.N = refOut (V m c main_arg0) (V m c main_arg1) (V m c main_arg2) :=
  (dats m 0 c).arrAt_eq_of_cover 3 _ (fun t _ => flushed_eq m c hd t) cover3

end Run

end Cert.BlockValue

end
-- ==== Proof.lean ====
/-
  Embedding seven categorical columns of a [1000000, 64] array: the kernel against its jnp reference, over the extended reals.

  Both programs replace each categorical column of `x` (columns 0, 2, 4, 7, 9, 11 with two categories, column 6 with three)
  by the row of an embedding table (`W2`'s three columns for that column, or `W3`) that the column's entry selects, and pass
  the other columns through: a [1000000, 80] result. Both decode the entry the same way, by converting it to a 32-bit
  integer toward zero. The reference then indexes the table with the integer (a negative one wrapped, the gather clamping it
  into the table); the kernel never indexes, it computes `row0 + [id = 1] * (row1 - row0)` (and a second such term for the
  third row). On an id that is a category the two are the same table entry, provided the table's entries are finite, since
  `a0 + 1 * (a1 - a0) = a1` needs `a0` finite; on an id that is not a category they differ (id 2 in a binary column: the
  kernel gives row 0, the clamped gather row 1), which is why the precondition says that every categorical column holds a
  category id, next to the finiteness of the inputs.

  How the claims are proved. The three frames: the kernel's two are the generated frame certificates; the reference's is its
  generated run with the result dropped. The idealization rewrote nothing, so `preserves` is trivial. For `algebraic` the
  common result is the reference's own value, as a function of the three argument arrays (the generated reading of its run):
  the kernel's run leaves its output array at that function (Proof/BlockValue.lean: each of the thirteen stores of a grid
  point agrees with it on the block's rows, the stores tile the block, the 125 blocks tile the array), under what the
  precondition gives (Proof/PreDecode.lean: the tables' entries are real numbers, every id is a category).
-/
import proofs.«408796_j44555990729103_3_alg».proof.Defs
import proofs.«408796_j44555990729103_3_alg».proof.Proof.Gen.Kernel
import proofs.«408796_j44555990729103_3_alg».proof.Proof.Gen.Kernel.Skeleton
import proofs.«408796_j44555990729103_3_alg».proof.Proof.Gen.Kernel.Launch
import proofs.«408796_j44555990729103_3_alg».proof.Proof.Gen.Kernel.Points
import proofs.«408796_j44555990729103_3_alg».proof.Proof.Gen.Kernel.Frame
import proofs.«408796_j44555990729103_3_alg».proof.Proof.Gen.KernelIdeal
import proofs.«408796_j44555990729103_3_alg».proof.Proof.Gen.KernelIdeal.Skeleton
import proofs.«408796_j44555990729103_3_alg».proof.Proof.Gen.KernelIdeal.Launch
import proofs.«408796_j44555990729103_3_alg».proof.Proof.Gen.KernelIdeal.Points
import proofs.«408796_j44555990729103_3_alg».proof.Proof.Gen.KernelIdeal.Frame
import proofs.«408796_j44555990729103_3_alg».proof.Proof.Gen.ReferenceIdeal
import proofs.«408796_j44555990729103_3_alg».proof.Proof.Gen.Pre_finite_inputs
import proofs.«408796_j44555990729103_3_alg».proof.Proof.Gen.KernelIdeal.Value
import proofs.«408796_j44555990729103_3_alg».proof.Proof.Gen.ReferenceIdeal.Run
import proofs.«408796_j44555990729103_3_alg».proof.Proof.Gen.ReferenceIdeal.Read
import proofs.«408796_j44555990729103_3_alg».proof.Proof.BlockValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on `x`, `W2`, `W3` both programs end with the reference's value of those arrays in their result. -/
theorem algebraic : Cert.algebraic_KernelIdeal_ReferenceIdeal := by
  intro m ρ m' ρ' hpre hagree
  refine ⟨fun c => Cert.BlockValue.refOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.BlockValue.final m c (Cert.PreDecode.decode _ _ _ (hpre c))), (h c).2⟩)
      (Cert.KernelIdeal.Value.run_blocks (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v82_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
